-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v86)) (v2 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_v102) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x524288 : Shape := ⟨2, ![2, 524288]⟩
abbrev S256x128 : Shape := ⟨2, ![256, 128]⟩
abbrev S128 : Shape := ⟨1, ![128]⟩
abbrev S256x64 : Shape := ⟨2, ![256, 64]⟩
abbrev S64 : Shape := ⟨1, ![64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S256x64 .f32) (main_arg9 : FVec F S64 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S256x64 .f32) (main_arg7 : FVec F S64 .f32) (main_arg8 : FVec F S256x64 .f32) (main_arg9 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S8192x256 .f32) (main_arg1 : IVec S2x524288 32) (main_arg2 : FVec F S256x128 .f32) (main_arg3 : FVec F S128 .f32) (main_arg4 : FVec F S256x128 .f32) (main_arg5 : FVec F S128 .f32) (main_arg6 : FVec F S256x64 .f32) (main_arg7 : FVec F S64 .f32) (main_arg8 : FVec F S256x64 .f32) (main_arg9 : FVec F S64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S8192x256 : Shape := ⟨2, ![8192, 256]⟩
abbrev S2x524288 : Shape := ⟨2, ![2, 524288]⟩
abbrev S256x128 : Shape := ⟨2, ![256, 128]⟩
abbrev S128 : Shape := ⟨1, ![128]⟩
abbrev S256x64 : Shape := ⟨2, ![256, 64]⟩
abbrev S64 : Shape := ⟨1, ![64]⟩
abbrev S8192 : Shape := ⟨1, ![8192]⟩
abbrev S1x524288 : Shape := ⟨2, ![1, 524288]⟩
abbrev S524288 : Shape := ⟨1, ![524288]⟩
abbrev S532480 : Shape := ⟨1, ![532480]⟩
abbrev S_ : Shape := ⟨0, ![]⟩
abbrev S532480x1 : Shape := ⟨2, ![532480, 1]⟩
abbrev S256x256 : Shape := ⟨2, ![256, 256]⟩
abbrev S1024x256 : Shape := ⟨2, ![1024, 256]⟩
abbrev S8192x128 : Shape := ⟨2, ![8192, 128]⟩
abbrev S532480x128 : Shape := ⟨2, ![532480, 128]⟩
abbrev S1x128 : Shape := ⟨2, ![1, 128]⟩
abbrev S1024x128 : Shape := ⟨2, ![1024, 128]⟩
abbrev S8192x64 : Shape := ⟨2, ![8192, 64]⟩
abbrev S532480x64 : Shape := ⟨2, ![532480, 64]⟩
abbrev S1x64 : Shape := ⟨2, ![1, 64]⟩
abbrev S8192x8192 : Shape := ⟨2, ![8192, 8192]⟩
abbrev S1024x64 : Shape := ⟨2, ![1024, 64]⟩
abbrev S1024x1024 : Shape := ⟨2, ![1024, 1024]⟩

abbrev nBuf : Space → Nat
  | .hbm => 136
  | .vmem => 16
  | .smem => 0
  | _ => 0

abbrev hbmTy0_0 (i : Nat) : BufTy := match i % 128 with
  | 0 => ⟨S8192x256, .f32⟩
  | 1 => ⟨S2x524288, .i32⟩
  | 2 => ⟨S256x128, .f32⟩
  | 3 => ⟨S128, .f32⟩
  | 4 => ⟨S256x128, .f32⟩
  | 5 => ⟨S128, .f32⟩
  | 6 => ⟨S256x64, .f32⟩
  | 7 => ⟨S64, .f32⟩
  | 8 => ⟨S256x64, .f32⟩
  | 9 => ⟨S64, .f32⟩
  | 10 => ⟨S8192, .i32⟩
  | 11 => ⟨S1x524288, .i32⟩
  | 12 => ⟨S524288, .i32⟩
  | 13 => ⟨S532480, .i32⟩
  | 14 => ⟨S1x524288, .i32⟩
  | 15 => ⟨S524288, .i32⟩
  | 16 => ⟨S532480, .i32⟩
  | 17 => ⟨S_, .f32⟩
  | 18 => ⟨S532480, .f32⟩
  | 19 => ⟨S_, .f32⟩
  | 20 => ⟨S8192, .f32⟩
  | 21 => ⟨S532480x1, .i32⟩
  | 22 => ⟨S8192, .f32⟩
  | 23 => ⟨S_, .f32⟩
  | 24 => ⟨S8192, .f32⟩
  | 25 => ⟨S8192, .i1⟩
  | 26 => ⟨S8192, .f32⟩
  | 27 => ⟨S_, .f32⟩
  | 28 => ⟨S_, .f32⟩
  | 29 => ⟨S8192, .f32⟩
  | 30 => ⟨S8192, .f32⟩
  | 31 => ⟨S_, .i32⟩
  | 32 => ⟨S532480, .i32⟩
  | 33 => ⟨S532480, .i1⟩
  | 34 => ⟨S_, .i32⟩
  | 35 => ⟨S532480, .i32⟩
  | 36 => ⟨S532480, .i32⟩
  | 37 => ⟨S532480, .i32⟩
  | 38 => ⟨S532480x1, .i32⟩
  | 39 => ⟨S532480, .f32⟩
  | 40 => ⟨S_, .i32⟩
  | 41 => ⟨S532480, .i32⟩
  | 42 => ⟨S532480, .i1⟩
  | 43 => ⟨S_, .i32⟩
  | 44 => ⟨S532480, .i32⟩
  | 45 => ⟨S532480, .i32⟩
  | 46 => ⟨S532480, .i32⟩
  | 47 => ⟨S532480x1, .i32⟩
  | 48 => ⟨S532480, .f32⟩
  | 49 => ⟨S532480, .f32⟩
  | 50 => ⟨S256x256, .f32⟩
  | 51 => ⟨S8192x256, .f32⟩
  | 52 => ⟨S8192x128, .f32⟩
  | 53 => ⟨S8192x128, .f32⟩
  | 54 => ⟨S_, .i32⟩
  | 55 => ⟨S532480, .i32⟩
  | 56 => ⟨S532480, .i1⟩
  | 57 => ⟨S_, .i32⟩
  | 58 => ⟨S532480, .i32⟩
  | 59 => ⟨S532480, .i32⟩
  | 60 => ⟨S532480, .i32⟩
  | 61 => ⟨S532480x1, .i32⟩
  | 62 => ⟨S532480x128, .f32⟩
  | 63 => ⟨S532480x1, .f32⟩
  | 64 => ⟨S532480x128, .f32⟩
  | 65 => ⟨S532480x128, .f32⟩
  | 66 => ⟨S_, .f32⟩
  | 67 => ⟨S8192x128, .f32⟩
  | 68 => ⟨S532480x1, .i32⟩
  | 69 => ⟨S8192x128, .f32⟩
  | 70 => ⟨S1x128, .f32⟩
  | 71 => ⟨S8192x128, .f32⟩
  | 72 => ⟨S8192x128, .f32⟩
  | 73 => ⟨S_, .i32⟩
  | 74 => ⟨S532480, .i32⟩
  | 75 => ⟨S532480, .i1⟩
  | 76 => ⟨S_, .i32⟩
  | 77 => ⟨S532480, .i32⟩
  | 78 => ⟨S532480, .i32⟩
  | 79 => ⟨S532480, .i32⟩
  | 80 => ⟨S532480x1, .i32⟩
  | 81 => ⟨S532480x128, .f32⟩
  | 82 => ⟨S532480x1, .f32⟩
  | 83 => ⟨S532480x128, .f32⟩
  | 84 => ⟨S532480x128, .f32⟩
  | 85 => ⟨S_, .f32⟩
  | 86 => ⟨S8192x128, .f32⟩
  | 87 => ⟨S532480x1, .i32⟩
  | 88 => ⟨S8192x128, .f32⟩
  | 89 => ⟨S1x128, .f32⟩
  | 90 => ⟨S8192x128, .f32⟩
  | 91 => ⟨S8192x128, .f32⟩
  | 92 => ⟨S8192x256, .f32⟩
  | 93 => ⟨S256x128, .f32⟩
  | 94 => ⟨S8192x128, .f32⟩
  | 95 => ⟨S8192x64, .f32⟩
  | 96 => ⟨S8192x64, .f32⟩
  | 97 => ⟨S_, .i32⟩
  | 98 => ⟨S532480, .i32⟩
  | 99 => ⟨S532480, .i1⟩
  | 100 => ⟨S_, .i32⟩
  | 101 => ⟨S532480, .i32⟩
  | 102 => ⟨S532480, .i32⟩
  | 103 => ⟨S532480, .i32⟩
  | 104 => ⟨S532480x1, .i32⟩
  | 105 => ⟨S532480x64, .f32⟩
  | 106 => ⟨S532480x1, .f32⟩
  | 107 => ⟨S532480x64, .f32⟩
  | 108 => ⟨S532480x64, .f32⟩
  | 109 => ⟨S_, .f32⟩
  | 110 => ⟨S8192x64, .f32⟩
  | 111 => ⟨S532480x1, .i32⟩
  | 112 => ⟨S8192x64, .f32⟩
  | 113 => ⟨S1x64, .f32⟩
  | 114 => ⟨S8192x64, .f32⟩
  | 115 => ⟨S8192x64, .f32⟩
  | 116 => ⟨S_, .i32⟩
  | 117 => ⟨S532480, .i32⟩
  | 118 => ⟨S532480, .i1⟩
  | 119 => ⟨S_, .i32⟩
  | 120 => ⟨S532480, .i32⟩
  | 121 => ⟨S532480, .i32⟩
  | 122 => ⟨S532480, .i32⟩
  | 123 => ⟨S532480x1, .i32⟩
  | 124 => ⟨S532480x64, .f32⟩
  | 125 => ⟨S532480x1, .f32⟩
  | 126 => ⟨S532480x64, .f32⟩
  | 127 => ⟨S532480x64, .f32⟩
  | _ => ⟨S8192x256, .f32⟩

abbrev hbmTy0_1 (i : Nat) : BufTy := match i % 128 with
  | 0 => ⟨S_, .f32⟩
  | 1 => ⟨S8192x64, .f32⟩
  | 2 => ⟨S532480x1, .i32⟩
  | 3 => ⟨S8192x64, .f32⟩
  | 4 => ⟨S1x64, .f32⟩
  | 5 => ⟨S8192x64, .f32⟩
  | 6 => ⟨S8192x64, .f32⟩
  | 7 => ⟨S8192x8192, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x128, .f32⟩
  | .local _ .vmem, ⟨8, _⟩ => ⟨S1024x128, .f32⟩
  | .local _ .vmem, ⟨9, _⟩ => ⟨S1024x128, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x1024, .f32⟩
  | .local _ .vmem, ⟨15, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_c_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_15 : Ref sig .tc := ⟨.hbm, 116, rfl⟩
abbrev main_v87 : Ref sig .tc := ⟨.hbm, 117, rfl⟩
abbrev main_v88 : Ref sig .tc := ⟨.hbm, 118, rfl⟩
abbrev main_c_16 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_17 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x524288_S1x524288_0_0 : S2x524288.Slices ![0, 0] S1x524288
  shapeCasts_S1x524288_S524288 : S1x524288.ShapeCasts S524288
  concatenates_S524288_S8192_S532480_d0 : Shape.Concatenates [S524288, S8192] S532480 0
  slices_S2x524288_S1x524288_1_0 : S2x524288.Slices ![1, 0] S1x524288
  bcast_S_S532480 : S_.BroadcastsInDim S532480 (![] : Fin 0 → Fin S532480.rank)
  bcast_S_S8192 : S_.BroadcastsInDim S8192 (![] : Fin 0 → Fin S8192.rank)
  bcast_S532480_S532480x1_0 : S532480.BroadcastsInDim S532480x1 (![0] : Fin 1 → Fin S532480x1.rank)
  concatenates_S256x128_S256x128_S256x256_d1 : Shape.Concatenates [S256x128, S256x128] S256x256 1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S8192x256_S8192x128_0_0 : S8192x256.Slices ![0, 0] S8192x128
  slices_S8192x256_S8192x128_0_128 : S8192x256.Slices ![0, 128] S8192x128
  bcast_S532480x1_S532480x128_0_1 : S532480x1.BroadcastsInDim S532480x128 (![0, 1] : Fin 2 → Fin S532480x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S8192x128_S8192x128_S8192x256_d1 : Shape.Concatenates [S8192x128, S8192x128] S8192x256 1
  concatenates_S256x64_S256x64_S256x128_d1 : Shape.Concatenates [S256x64, S256x64] S256x128 1
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x128_S1024x128_0_0 : ∀ a, (![0, 0] : Fin 2 → Nat) a + S1024x128.size a ≤ S1024x128.size a
  h_S1024x128 : 0 < S1024x128.numel
  slices_S8192x128_S8192x64_0_0 : S8192x128.Slices ![0, 0] S8192x64
  slices_S8192x128_S8192x64_0_64 : S8192x128.Slices ![0, 64] S8192x64
  bcast_S532480x1_S532480x64_0_1 : S532480x1.BroadcastsInDim S532480x64 (![0, 1] : Fin 2 → Fin S532480x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  dot_S1024x256_S256x256_S1024x256_1_0_0_1_n_n_wf : DotDims.WF S1024x256 S256x256 S1024x256 [1] [0] [0] [1] [] []
  gather_S8192x128_S532480x1_S532480x128_1_0_n_n_0_1_1128_wf : GatherDims.WF S8192x128 S532480x1 S532480x128 [1] [0] [] [0] [] 1 ![1, 128]
  scatter_S8192x128_S532480x1_S532480x128_1_0_0_1_wf : ScatterDims.WF S8192x128 S532480x1 S532480x128 [1] [0] [0] 1
  dot_S1024x256_S256x128_S1024x128_1_0_0_1_n_n_wf : DotDims.WF S1024x256 S256x128 S1024x128 [1] [0] [0] [1] [] []
  gather_S8192x64_S532480x1_S532480x64_1_0_n_n_0_1_164_wf : GatherDims.WF S8192x64 S532480x1 S532480x64 [1] [0] [] [0] [] 1 ![1, 64]
  scatter_S8192x64_S532480x1_S532480x64_1_0_0_1_wf : ScatterDims.WF S8192x64 S532480x1 S532480x64 [1] [0] [0] 1
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S8192x128_S532480x1_S532480x128_1_0_n_n_0_1_1128 : GatherDims S8192x128 S532480x1 S532480x128 where
  offsetDims := [1]
  collapsedSliceDims := [0]
  operandBatchingDims := []
  startIndicesBatchingDims := []
  startIndexMap := [0]
  indexVectorDim := 1
  sliceSizes := ![1, 128]
  wf := gather_S8192x128_S532480x1_S532480x128_1_0_n_n_0_1_1128_wf
def scatter_S8192x128_S532480x1_S532480x128_1_0_0_1 : ScatterDims S8192x128 S532480x1 S532480x128 where
  updateWindowDims := [1]
  insertedWindowDims := [0]
  scatterDimsToOperandDims := [0]
  indexVectorDim := 1
  wf := scatter_S8192x128_S532480x1_S532480x128_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S8192x64_S532480x1_S532480x64_1_0_n_n_0_1_164 : GatherDims S8192x64 S532480x1 S532480x64 where
  offsetDims := [1]
  collapsedSliceDims := [0]
  operandBatchingDims := []
  startIndicesBatchingDims := []
  startIndexMap := [0]
  indexVectorDim := 1
  sliceSizes := ![1, 64]
  wf := gather_S8192x64_S532480x1_S532480x64_1_0_n_n_0_1_164_wf
def scatter_S8192x64_S532480x1_S532480x64_1_0_0_1 : ScatterDims S8192x64 S532480x1 S532480x64 where
  updateWindowDims := [1]
  insertedWindowDims := [0]
  scatterDimsToOperandDims := [0]
  indexVectorDim := 1
  wf := scatter_S8192x64_S532480x1_S532480x64_1_0_0_1_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v86) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v86) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S2x524288 : Shape := ⟨2, ![2, 524288]⟩
abbrev S256x128 : Shape := ⟨2, ![256, 128]⟩
abbrev S128 : Shape := ⟨1, ![128]⟩
abbrev S256x64 : Shape := ⟨2, ![256, 64]⟩
abbrev S64 : Shape := ⟨1, ![64]⟩
abbrev S8192 : Shape := ⟨1, ![8192]⟩
abbrev S1x524288 : Shape := ⟨2, ![1, 524288]⟩
abbrev S524288 : Shape := ⟨1, ![524288]⟩
abbrev S532480 : Shape := ⟨1, ![532480]⟩
abbrev S_ : Shape := ⟨0, ![]⟩
abbrev S532480x1 : Shape := ⟨2, ![532480, 1]⟩
abbrev S8192x128 : Shape := ⟨2, ![8192, 128]⟩
abbrev S532480x128 : Shape := ⟨2, ![532480, 128]⟩
abbrev S1x128 : Shape := ⟨2, ![1, 128]⟩
abbrev S8192x64 : Shape := ⟨2, ![8192, 64]⟩
abbrev S532480x64 : Shape := ⟨2, ![532480, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 141
  | .vmem => 0
  | .smem => 0
  | _ => 0

abbrev hbmTy0_0 (i : Nat) : BufTy := match i % 128 with
  | 0 => ⟨S8192x256, .f32⟩
  | 1 => ⟨S2x524288, .i32⟩
  | 2 => ⟨S256x128, .f32⟩
  | 3 => ⟨S128, .f32⟩
  | 4 => ⟨S256x128, .f32⟩
  | 5 => ⟨S128, .f32⟩
  | 6 => ⟨S256x64, .f32⟩
  | 7 => ⟨S64, .f32⟩
  | 8 => ⟨S256x64, .f32⟩
  | 9 => ⟨S64, .f32⟩
  | 10 => ⟨S8192, .i32⟩
  | 11 => ⟨S1x524288, .i32⟩
  | 12 => ⟨S524288, .i32⟩
  | 13 => ⟨S532480, .i32⟩
  | 14 => ⟨S1x524288, .i32⟩
  | 15 => ⟨S524288, .i32⟩
  | 16 => ⟨S532480, .i32⟩
  | 17 => ⟨S_, .f32⟩
  | 18 => ⟨S532480, .f32⟩
  | 19 => ⟨S_, .f32⟩
  | 20 => ⟨S8192, .f32⟩
  | 21 => ⟨S532480x1, .i32⟩
  | 22 => ⟨S8192, .f32⟩
  | 23 => ⟨S_, .f32⟩
  | 24 => ⟨S8192, .f32⟩
  | 25 => ⟨S8192, .i1⟩
  | 26 => ⟨S8192, .f32⟩
  | 27 => ⟨S_, .f32⟩
  | 28 => ⟨S_, .f32⟩
  | 29 => ⟨S8192, .f32⟩
  | 30 => ⟨S8192, .f32⟩
  | 31 => ⟨S_, .i32⟩
  | 32 => ⟨S532480, .i32⟩
  | 33 => ⟨S532480, .i1⟩
  | 34 => ⟨S_, .i32⟩
  | 35 => ⟨S532480, .i32⟩
  | 36 => ⟨S532480, .i32⟩
  | 37 => ⟨S532480, .i32⟩
  | 38 => ⟨S532480x1, .i32⟩
  | 39 => ⟨S532480, .f32⟩
  | 40 => ⟨S_, .i32⟩
  | 41 => ⟨S532480, .i32⟩
  | 42 => ⟨S532480, .i1⟩
  | 43 => ⟨S_, .i32⟩
  | 44 => ⟨S532480, .i32⟩
  | 45 => ⟨S532480, .i32⟩
  | 46 => ⟨S532480, .i32⟩
  | 47 => ⟨S532480x1, .i32⟩
  | 48 => ⟨S532480, .f32⟩
  | 49 => ⟨S532480, .f32⟩
  | 50 => ⟨S8192x128, .f32⟩
  | 51 => ⟨S_, .i32⟩
  | 52 => ⟨S532480, .i32⟩
  | 53 => ⟨S532480, .i1⟩
  | 54 => ⟨S_, .i32⟩
  | 55 => ⟨S532480, .i32⟩
  | 56 => ⟨S532480, .i32⟩
  | 57 => ⟨S532480, .i32⟩
  | 58 => ⟨S532480x1, .i32⟩
  | 59 => ⟨S532480x128, .f32⟩
  | 60 => ⟨S532480x1, .f32⟩
  | 61 => ⟨S532480x128, .f32⟩
  | 62 => ⟨S532480x128, .f32⟩
  | 63 => ⟨S_, .f32⟩
  | 64 => ⟨S8192x128, .f32⟩
  | 65 => ⟨S532480x1, .i32⟩
  | 66 => ⟨S8192x128, .f32⟩
  | 67 => ⟨S1x128, .f32⟩
  | 68 => ⟨S8192x128, .f32⟩
  | 69 => ⟨S8192x128, .f32⟩
  | 70 => ⟨S8192x128, .f32⟩
  | 71 => ⟨S_, .i32⟩
  | 72 => ⟨S532480, .i32⟩
  | 73 => ⟨S532480, .i1⟩
  | 74 => ⟨S_, .i32⟩
  | 75 => ⟨S532480, .i32⟩
  | 76 => ⟨S532480, .i32⟩
  | 77 => ⟨S532480, .i32⟩
  | 78 => ⟨S532480x1, .i32⟩
  | 79 => ⟨S532480x128, .f32⟩
  | 80 => ⟨S532480x1, .f32⟩
  | 81 => ⟨S532480x128, .f32⟩
  | 82 => ⟨S532480x128, .f32⟩
  | 83 => ⟨S_, .f32⟩
  | 84 => ⟨S8192x128, .f32⟩
  | 85 => ⟨S532480x1, .i32⟩
  | 86 => ⟨S8192x128, .f32⟩
  | 87 => ⟨S1x128, .f32⟩
  | 88 => ⟨S8192x128, .f32⟩
  | 89 => ⟨S8192x128, .f32⟩
  | 90 => ⟨S8192x256, .f32⟩
  | 91 => ⟨S8192x64, .f32⟩
  | 92 => ⟨S_, .i32⟩
  | 93 => ⟨S532480, .i32⟩
  | 94 => ⟨S532480, .i1⟩
  | 95 => ⟨S_, .i32⟩
  | 96 => ⟨S532480, .i32⟩
  | 97 => ⟨S532480, .i32⟩
  | 98 => ⟨S532480, .i32⟩
  | 99 => ⟨S532480x1, .i32⟩
  | 100 => ⟨S532480x64, .f32⟩
  | 101 => ⟨S532480x1, .f32⟩
  | 102 => ⟨S532480x64, .f32⟩
  | 103 => ⟨S532480x64, .f32⟩
  | 104 => ⟨S_, .f32⟩
  | 105 => ⟨S8192x64, .f32⟩
  | 106 => ⟨S532480x1, .i32⟩
  | 107 => ⟨S8192x64, .f32⟩
  | 108 => ⟨S1x64, .f32⟩
  | 109 => ⟨S8192x64, .f32⟩
  | 110 => ⟨S8192x64, .f32⟩
  | 111 => ⟨S8192x64, .f32⟩
  | 112 => ⟨S_, .i32⟩
  | 113 => ⟨S532480, .i32⟩
  | 114 => ⟨S532480, .i1⟩
  | 115 => ⟨S_, .i32⟩
  | 116 => ⟨S532480, .i32⟩
  | 117 => ⟨S532480, .i32⟩
  | 118 => ⟨S532480, .i32⟩
  | 119 => ⟨S532480x1, .i32⟩
  | 120 => ⟨S532480x64, .f32⟩
  | 121 => ⟨S532480x1, .f32⟩
  | 122 => ⟨S532480x64, .f32⟩
  | 123 => ⟨S532480x64, .f32⟩
  | 124 => ⟨S_, .f32⟩
  | 125 => ⟨S8192x64, .f32⟩
  | 126 => ⟨S532480x1, .i32⟩
  | 127 => ⟨S8192x64, .f32⟩
  | _ => ⟨S8192x256, .f32⟩

abbrev hbmTy0_1 (i : Nat) : BufTy := match i % 128 with
  | 0 => ⟨S1x64, .f32⟩
  | 1 => ⟨S8192x64, .f32⟩
  | 2 => ⟨S8192x64, .f32⟩
  | 3 => ⟨S64x8192, .f32⟩
  | 4 => ⟨S8192x8192, .f32⟩
  | 5 => ⟨S8192x8192, .f32⟩
  | 6 => ⟨S8192x8192, .f32⟩
  | 7 => ⟨S_, .f32⟩
  | 8 => ⟨S8192x8192, .f32⟩
  | 9 => ⟨S8192x8192, .f32⟩
  | 10 => ⟨S_, .f32⟩
  | 11 => ⟨S8192x8192, .f32⟩
  | 12 => ⟨S8192x8192, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_15 : Ref sig .tc := ⟨.hbm, 112, rfl⟩
abbrev main_v83 : Ref sig .tc := ⟨.hbm, 113, rfl⟩
abbrev main_v84 : Ref sig .tc := ⟨.hbm, 114, rfl⟩
abbrev main_c_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_17 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_18 : Ref sig .tc := ⟨.hbm, 135, rfl⟩
abbrev main_v103 : Ref sig .tc := ⟨.hbm, 136, rfl⟩
abbrev main_v104 : Ref sig .tc := ⟨.hbm, 137, rfl⟩
abbrev main_cst_19 : Ref sig .tc := ⟨.hbm, 138, rfl⟩
abbrev main_v105 : Ref sig .tc := ⟨.hbm, 139, rfl⟩
abbrev main_v106 : Ref sig .tc := ⟨.hbm, 140, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S8192_S532480_d0 : Shape.Concatenates [S524288, S8192] S532480 0
  slices_S2x524288_S1x524288_1_0 : S2x524288.Slices ![1, 0] S1x524288
  bcast_S_S532480 : S_.BroadcastsInDim S532480 (![] : Fin 0 → Fin S532480.rank)
  bcast_S_S8192 : S_.BroadcastsInDim S8192 (![] : Fin 0 → Fin S8192.rank)
  bcast_S532480_S532480x1_0 : S532480.BroadcastsInDim S532480x1 (![0] : Fin 1 → Fin S532480x1.rank)
  bcast_S532480x1_S532480x128_0_1 : S532480x1.BroadcastsInDim S532480x128 (![0, 1] : Fin 2 → Fin S532480x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S8192x128_S8192x128_S8192x256_d1 : Shape.Concatenates [S8192x128, S8192x128] S8192x256 1
  bcast_S532480x1_S532480x64_0_1 : S532480x1.BroadcastsInDim S532480x64 (![0, 1] : Fin 2 → Fin S532480x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  dot_S8192x256_S256x128_S8192x128_1_0_0_1_n_n_wf : DotDims.WF S8192x256 S256x128 S8192x128 [1] [0] [0] [1] [] []
  gather_S8192x128_S532480x1_S532480x128_1_0_n_n_0_1_1128_wf : GatherDims.WF S8192x128 S532480x1 S532480x128 [1] [0] [] [0] [] 1 ![1, 128]
  scatter_S8192x128_S532480x1_S532480x128_1_0_0_1_wf : ScatterDims.WF S8192x128 S532480x1 S532480x128 [1] [0] [0] 1
  dot_S8192x256_S256x64_S8192x64_1_0_0_1_n_n_wf : DotDims.WF S8192x256 S256x64 S8192x64 [1] [0] [0] [1] [] []
  gather_S8192x64_S532480x1_S532480x64_1_0_n_n_0_1_164_wf : GatherDims.WF S8192x64 S532480x1 S532480x64 [1] [0] [] [0] [] 1 ![1, 64]
  scatter_S8192x64_S532480x1_S532480x64_1_0_0_1_wf : ScatterDims.WF S8192x64 S532480x1 S532480x64 [1] [0] [0] 1
  dot_S8192x64_S64x8192_S8192x8192_1_0_0_1_n_n_wf : DotDims.WF S8192x64 S64x8192 S8192x8192 [1] [0] [0] [1] [] []

variable [Facts₀]

def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S532480x1_S532480x128_1_0_n_n_0_1_1128 : GatherDims S8192x128 S532480x1 S532480x128 where
  offsetDims := [1]
  collapsedSliceDims := [0]
  operandBatchingDims := []
  startIndicesBatchingDims := []
  startIndexMap := [0]
  indexVectorDim := 1
  sliceSizes := ![1, 128]
  wf := gather_S8192x128_S532480x1_S532480x128_1_0_n_n_0_1_1128_wf
def scatter_S8192x128_S532480x1_S532480x128_1_0_0_1 : ScatterDims S8192x128 S532480x1 S532480x128 where
  updateWindowDims := [1]
  insertedWindowDims := [0]
  scatterDimsToOperandDims := [0]
  indexVectorDim := 1
  wf := scatter_S8192x128_S532480x1_S532480x128_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S532480x1_S532480x64_1_0_n_n_0_1_164 : GatherDims S8192x64 S532480x1 S532480x64 where
  offsetDims := [1]
  collapsedSliceDims := [0]
  operandBatchingDims := []
  startIndicesBatchingDims := []
  startIndexMap := [0]
  indexVectorDim := 1
  sliceSizes := ![1, 64]
  wf := gather_S8192x64_S532480x1_S532480x64_1_0_n_n_0_1_164_wf
def scatter_S8192x64_S532480x1_S532480x64_1_0_0_1 : ScatterDims S8192x64 S532480x1 S532480x64 where
  updateWindowDims := [1]
  insertedWindowDims := [0]
  scatterDimsToOperandDims := [0]
  indexVectorDim := 1
  wf := scatter_S8192x64_S532480x1_S532480x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Region0.lean ====
/- Region 0: the first linear projection, one grid axis of 8 points. At point t the body multiplies rows
   [1024 t, 1024 (t+1)) of the left operand (window 0) by the whole right operand (window 1, fetched once) and
   stores the product as block t of the result (window 2). This module states what each window's staging buffer
   holds after the body at a point, runs the body once on arbitrary whole staging buffers, and packages both as
   the pipeline's proof data and body obligation, at any entry contents V of the core's buffers. -/
import proofs.«101821_j76244259438916_1_alg».proof.Proof.Gen.Kernel.Launch
import proofs.«101821_j76244259438916_1_alg».proof.Proof.Gen.Kernel.Skeleton
import proofs.«101821_j76244259438916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point (it is fetched at every point), for any
    proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point: fetched at the first point, its
    block index never moves afterwards and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S1024x256 := Rect.unit (s := S1024x256) ![0, 0] S1024x256.size inb_S1024x256_S1024x256_0_0
abbrev rW0 : Rect S256x256 := Rect.unit (s := S256x256) ![0, 0] S256x256.size inb_S256x256_S256x256_0_0
abbrev rO0 : Rect S1024x256 := Rect.unit (s := S1024x256) ![0, 0] S1024x256.size inb_S1024x256_S1024x256_0_0

/-- The result window's staging buffer after the body: one store, of the product of the two loaded blocks. -/
def out0 (x0 : Vec F S1024x256 .f32) (x1 : Vec F S256x256 .f32) : Vec F S1024x256 .f32 :=
  View.canon [⟨rO0, k0_pay1 (View.ld x0 rX0) (View.ld x1 rW0)⟩]

/-- The one store covers the buffer. -/
theorem cover0 (p0 : Vec F S1024x256 .f32) (y : S1024x256.Idx) :
    ∃ pc ∈ ([⟨rO0, p0⟩] : List (View.Piece (Elt F) S1024x256 .f32)), y ∈ pc.1.set :=
  View.cover_of_tiled [⟨rO0, p0⟩] S1024x256.size (by rfl) y

set_option maxHeartbeats 4000000 in
/-- The body on whole staging buffers: the inputs keep their contents, the result buffer ends at out0 of them. -/
theorem sound_kernel0 (c : Dev nD) (E : Set ℕ) (i : grid0.Coords)
    (arg1 : Memref sig .tc .vmem S1024x256 .f32) (harg1 : arg1.IsWhole)
    (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The pipeline's proof data on core c: the arrays as the region finds them; after the body at point t each
    input's buffer still at its block and the result's at out0 of the two input blocks; the invariant holds the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' staging buffers hold their blocks, so the body's run applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- Region 1: the second linear projection, one grid axis of 8 points. At point t the body multiplies rows
   [1024 t, 1024 (t+1)) of the [8192,256] left operand (window 0) by the whole [256,128] right operand (window 1,
   fetched once) and stores the product as block t of the [8192,128] result (window 2). What each window's staging
   buffer holds after the body at a point, the body's run on arbitrary whole staging buffers, and both packaged as
   the pipeline's proof data and body obligation, at any entry contents V of the core's buffers. -/
import proofs.«101821_j76244259438916_1_alg».proof.Proof.Gen.Kernel.Launch
import proofs.«101821_j76244259438916_1_alg».proof.Proof.Gen.Kernel.Skeleton
import proofs.«101821_j76244259438916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point (it is fetched at every point), for any
    proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds the whole operand at every point: fetched at the first point, its
    block index never moves afterwards and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S1024x256 := Rect.unit (s := S1024x256) ![0, 0] S1024x256.size inb_S1024x256_S1024x256_0_0
abbrev rW1 : Rect S256x128 := Rect.unit (s := S256x128) ![0, 0] S256x128.size inb_S256x128_S256x128_0_0
abbrev rO1 : Rect S1024x128 := Rect.unit (s := S1024x128) ![0, 0] S1024x128.size inb_S1024x128_S1024x128_0_0

/-- The result window's staging buffer after the body: one store, of the product of the two loaded blocks. -/
def out1 (x0 : Vec F S1024x256 .f32) (x1 : Vec F S256x128 .f32) : Vec F S1024x128 .f32 :=
  View.canon [⟨rO1, k1_pay1 (View.ld x0 rX1) (View.ld x1 rW1)⟩]

/-- The one store covers the buffer. -/
theorem cover1 (p0 : Vec F S1024x128 .f32) (y : S1024x128.Idx) :
    ∃ pc ∈ ([⟨rO1, p0⟩] : List (View.Piece (Elt F) S1024x128 .f32)), y ∈ pc.1.set :=
  View.cover_of_tiled [⟨rO1, p0⟩] S1024x128.size (by rfl) y

set_option maxHeartbeats 4000000 in
/-- The body on whole staging buffers: the inputs keep their contents, the result buffer ends at out1 of them. -/
theorem sound_kernel1 (c : Dev nD) (E : Set ℕ) (i : grid1.Coords)
    (arg1 : Memref sig .tc .vmem S1024x256 .f32) (harg1 : arg1.IsWhole)
    (arg2 : Memref sig .tc .vmem S256x128 .f32) (harg2 : arg2.IsWhole)
    (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The pipeline's proof data on core c: the arrays as the region finds them; after the body at point t each
    input's buffer still at its block and the result's at out1 of the two input blocks; the invariant holds the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' staging buffers hold their blocks, so the body's run applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/- Region 2: the decoder, a grid of 8 by 8 points. At point (i, j) the body takes rows [1024 i, 1024 (i+1)) of
   the embedding (window 0, fetched when j = 0 and kept along the row of the grid) and rows [1024 j, 1024 (j+1)) of
   the SAME array (window 1, fetched at every point), forms their 1024 by 1024 table of inner products, applies the
   logistic function and stores the result as block (i, j) of the output (window 2). Both input windows read one
   array: the pipeline holds it once per window, window 0 at the left half of the full share and window 1 at the
   right half. What each window's staging buffer holds after the body, the body's run on whole staging buffers,
   and both packaged as the pipeline's proof data and body obligation, at any entry contents V. -/
import proofs.«101821_j76244259438916_1_alg».proof.Proof.Gen.Kernel.Launch
import proofs.«101821_j76244259438916_1_alg».proof.Proof.Gen.Kernel.Skeleton
import proofs.«101821_j76244259438916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row operand's staging buffer holds its block at every point: fetched at the first point of each grid row,
    its block index does not move along the row and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column operand's staging buffer holds its block at every point (it is fetched at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rX2 : Rect S1024x64 := Rect.unit (s := S1024x64) ![0, 0] S1024x64.size inb_S1024x64_S1024x64_0_0
abbrev rW2 : Rect S1024x64 := Rect.unit (s := S1024x64) ![0, 0] S1024x64.size inb_S1024x64_S1024x64_0_0
abbrev rO2 : Rect S1024x1024 := Rect.unit (s := S1024x1024) ![0, 0] S1024x1024.size inb_S1024x1024_S1024x1024_0_0

/-- The result window's staging buffer after the body: one store, of the logistic function of the inner products
    of the rows of the two loaded blocks. -/
def out2 (x0 : Vec F S1024x64 .f32) (x1 : Vec F S1024x64 .f32) : Vec F S1024x1024 .f32 :=
  View.canon [⟨rO2, k2_pay1 (View.ld x0 rX2) (View.ld x1 rW2)⟩]

/-- The one store covers the buffer. -/
theorem cover2 (p0 : Vec F S1024x1024 .f32) (y : S1024x1024.Idx) :
    ∃ pc ∈ ([⟨rO2, p0⟩] : List (View.Piece (Elt F) S1024x1024 .f32)), y ∈ pc.1.set :=
  View.cover_of_tiled [⟨rO2, p0⟩] S1024x1024.size (by rfl) y

set_option maxHeartbeats 4000000 in
/-- The body on whole staging buffers: the inputs keep their contents, the result buffer ends at out2 of them. -/
theorem sound_kernel2 (c : Dev nD) (E : Set ℕ) (i : grid2.Coords)
    (arg2 : Memref sig .tc .vmem S1024x64 .f32) (harg2 : arg2.IsWhole)
    (arg3 : Memref sig .tc .vmem S1024x64 .f32) (harg3 : arg3.IsWhole)
    (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core c: the arrays as the region finds them; after the body at point t each
    input's buffer still at its block and the result's at out2 of the two input blocks; the invariant holds the
    scoped buffers no window stages and the generator register, untouched; nothing owed; the two input windows
    hold their common array at the left and the right half of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' staging buffers hold their blocks, so the body's run applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Stages.lean ====
/- What the three kernel regions leave, stage by stage. Between two items of @main the core's buffers are named
   by the generated valuations (launch; each host stretch applied; a region's result array replaced by what the
   region leaves). Here the contents a region leaves are FIXED: the fold of its write-backs over its proof data,
   each region's proof data taken at the contents the earlier stages produce. A later stage does not change what
   an earlier one is entered from. -/
import proofs.«101821_j76244259438916_1_alg».proof.Proof.K.Region0
import proofs.«101821_j76244259438916_1_alg».proof.Proof.K.Region1
import proofs.«101821_j76244259438916_1_alg».proof.Proof.K.Region2
import proofs.«101821_j76244259438916_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, stage by stage -/

/-- The contents region 0 is entered from, read at the TensorCore's references. -/
abbrev E0 : (c : Dev nD) → (b : Ref sig .tc) → Buf (Elt F) ((c : Thread nD τ).loc b) := fun c b => V3 m c b
/-- What region 0's write-backs leave in its result array. -/
def o4 (c : Dev nD) : Buf (Elt F) ((c : Thread nD τ).loc main_v31) := (dat0 (E0 m) c).arrAt 2 cfg0.N
/-- The regions' results so far: region 0's. -/
def outs1 : Outs (F := F) := fun _ r c => Function.update (V0 m c) main_v31 (o4 m c) r
/-- The contents region 1 is entered from. -/
abbrev E1 : (c : Dev nD) → (b : Ref sig .tc) → Buf (Elt F) ((c : Thread nD τ).loc b) := fun c b => V5 m (outs1 m) c b
/-- What region 1's write-backs leave in its result array. -/
def o6 (c : Dev nD) : Buf (Elt F) ((c : Thread nD τ).loc main_v68) := (dat1 (E1 m) c).arrAt 2 cfg1.N
/-- The regions' results so far: regions 0 and 1's. -/
def outs2 : Outs (F := F) := fun _ r c => Function.update (Function.update (V0 m c) main_v31 (o4 m c)) main_v68 (o6 m c) r
/-- The contents region 2 is entered from. -/
abbrev E2 : (c : Dev nD) → (b : Ref sig .tc) → Buf (Elt F) ((c : Thread nD τ).loc b) := fun c b => V7 m (outs2 m) c b
/-- What region 2's write-backs leave in its result array. -/
def o8 (c : Dev nD) : Buf (Elt F) ((c : Thread nD τ).loc main_v103) := (dat2 (E2 m) c).arrAt 2 cfg2.N
/-- The three regions' results. -/
def outsK : Outs (F := F) := fun _ r c =>
  Function.update (Function.update (Function.update (V0 m c) main_v31 (o4 m c)) main_v68 (o6 m c)) main_v103 (o8 m c) r

theorem outs1_v31 (n : ℕ) (c : Dev nD) : outs1 m n main_v31 c = o4 m c := by
  unfold outs1; exact Function.update_self _ _ _
theorem outs2_v31 (n : ℕ) (c : Dev nD) : outs2 m n main_v31 c = o4 m c := by
  unfold outs2
  rw [Function.update_of_ne (StableHlo.devRef_ne_of_ne (by decide) : (Proc.devRef .tc main_v31 : DevRef τ sig) ≠ Proc.devRef .tc main_v68)]
  exact Function.update_self _ _ _
theorem outs2_v68 (n : ℕ) (c : Dev nD) : outs2 m n main_v68 c = o6 m c := by
  unfold outs2; exact Function.update_self _ _ _
theorem outsK_v31 (n : ℕ) (c : Dev nD) : outsK m n main_v31 c = o4 m c := by
  unfold outsK
  rw [Function.update_of_ne (StableHlo.devRef_ne_of_ne (by decide) : (Proc.devRef .tc main_v31 : DevRef τ sig) ≠ Proc.devRef .tc main_v103),
    Function.update_of_ne (StableHlo.devRef_ne_of_ne (by decide) : (Proc.devRef .tc main_v31 : DevRef τ sig) ≠ Proc.devRef .tc main_v68)]
  exact Function.update_self _ _ _
theorem outsK_v68 (n : ℕ) (c : Dev nD) : outsK m n main_v68 c = o6 m c := by
  unfold outsK
  rw [Function.update_of_ne (StableHlo.devRef_ne_of_ne (by decide) : (Proc.devRef .tc main_v68 : DevRef τ sig) ≠ Proc.devRef .tc main_v103)]
  exact Function.update_self _ _ _
theorem outsK_v103 (n : ℕ) (c : Dev nD) : outsK m n main_v103 c = o8 m c := by
  unfold outsK; exact Function.update_self _ _ _

/-- The later stages do not change what the earlier ones are entered from. -/
theorem V5_outsK (c : Dev nD) : V5 m (outsK m) c = V5 m (outs1 m) c := by
  show StableHlo.after hostOps1 (Function.update (V3 m c) main_v31 (outsK m 4 main_v31 c)) = StableHlo.after hostOps1 (Function.update (V3 m c) main_v31 (outs1 m 4 main_v31 c))
  rw [outsK_v31, outs1_v31]
theorem V5_outs2 (c : Dev nD) : V5 m (outs2 m) c = V5 m (outs1 m) c := by
  show StableHlo.after hostOps1 (Function.update (V3 m c) main_v31 (outs2 m 4 main_v31 c)) = StableHlo.after hostOps1 (Function.update (V3 m c) main_v31 (outs1 m 4 main_v31 c))
  rw [outs2_v31, outs1_v31]
theorem V7_outsK (c : Dev nD) : V7 m (outsK m) c = V7 m (outs2 m) c := by
  show StableHlo.after hostOps2 (Function.update (V5 m (outsK m) c) main_v68 (outsK m 6 main_v68 c)) = StableHlo.after hostOps2 (Function.update (V5 m (outs2 m) c) main_v68 (outs2 m 6 main_v68 c))
  rw [V5_outsK, V5_outs2, outsK_v68, outs2_v68]

end Cert.Kernel.Hand

end
-- ==== Proof.LibSharedArrays.lean ====
/- Two windows of a pipeline on one array.

A pipeline's entry and exit lemmas take the windows' arrays pairwise distinct: each array is then one of the
core's unscoped buffers, held whole at the full share. Here two input windows `w₀`, `w₁` read ONE array and the
others are distinct from it and from one another. The buffer behind the common array is held once, at the full
share; the pipeline wants it twice, once per window. The full share is its left half joined with its right half,
and a points-to splits and joins along its share, so window `w₀` is given the left half and window `w₁` the right
half; every other window keeps the full share.

`arrBufs_eq_arrays` is that statement as an EQUATION of assertions, so it serves both at a region's entry (the
buffers become the arrays) and at its exit (the arrays become the buffers again): the two halves rejoin because
both windows saw the same contents, those of the common buffer. `unscopedBufs_eq_arrays` puts the unscoped rest
beside it. Nothing here names a particular program. -/
import Idealize.ShloMosaic.Lib.Pipeline.Launch

noncomputable section

namespace Cert.Lib.SharedArrays

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg arrRef arrBufs unscopedRest)

variable {nD : Nat} {τ : Topo} {sig : RefSig} {Val : EltTy → Type} {Λ₀ : Idealize.SL.Sem.Labels}
variable {Ix : Type} [DecidableEq Ix] {Name : Type} [DecidableEq Name] {U : Type} [URA U] {Lvl : Type}

local notation "𝕄" => MT nD τ sig Ix Val Name U Lvl

/-- An iterated conjunction over the image of a map injective on the index set is the one over the index set. -/
theorem bigSep_image_of_injOn {M : Type} [URA M] {I J : Type} [DecidableEq J] {s : Finset I} {g : I → J}
    (H : Set.InjOn g (↑s : Set I)) (Φ : J → sProp M) :
    bigSep (s.image g) Φ = bigSep s fun i => Φ (g i) :=
  Finset.fold_image H

/-- A whole buffer at the full share is the same buffer at the left half and at the right half. -/
theorem pointsTo_full_halves (ℓ : Loc nD τ sig) (f : Buf Val ℓ) :
    (ℓ ↦{fullShare} f : sProp 𝕄) = iprop((ℓ ↦{fullShare.left} f) ∗ ℓ ↦{fullShare.right} f) :=
  Idealize.SL.BI.Entails.antisymm (pointsTo_share (PosShare.mem_left_op_right fullShare)).1
    (pointsTo_share (PosShare.mem_left_op_right fullShare)).2

/-- Separating conjunction is associative, as an equation of assertions. -/
theorem sep_assoc_eq {M : Type} [URA M] (A B R : sProp M) : iprop((A ∗ B) ∗ R) = iprop(A ∗ B ∗ R) :=
  Idealize.SL.BI.Entails.antisymm Idealize.SL.BI.sep_assoc Idealize.SL.BI.sep_assoc'

variable {cfg : Cfg sig Λ₀} {c : Dev nD} (dat : Dat τ Val Ix Name U Lvl cfg c)

/-- The buffers behind the windows' arrays ARE the pipeline's arrays, when windows `w₀` and `w₁` read one array
    (`hsame`) held at the two halves of the full share (`hs₀`, `hs₁`), the windows other than `w₀` have pairwise
    distinct arrays (`hinj`) held at the full share (`hs`), every array is a whole buffer (`harr`), and the contents
    `F` are read off the buffers' contents `V` (`hF`). -/
theorem arrBufs_eq_arrays (w₀ w₁ : Fin cfg.W) (hne : w₀ ≠ w₁)
    (hsame : arrRef cfg.spec w₀ = arrRef cfg.spec w₁)
    (hinj : ∀ w w', w ≠ w₀ → w' ≠ w₀ → arrRef cfg.spec w = arrRef cfg.spec w' → w = w')
    (harr : ∀ w, (cfg.spec w).arr.IsWhole)
    (hs₀ : dat.share w₀ = fullShare.left) (hs₁ : dat.share w₁ = fullShare.right)
    (hs : ∀ w, w ≠ w₀ → w ≠ w₁ → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    (arrBufs cfg.spec c V : sProp 𝕄) = dat.arrays F := by
  classical
  -- a buffer at a share, as a function of the reference alone: equal references give equal assertions
  let Ψ : Ref sig .tc → PosShare TreeShare → sProp 𝕄 := fun b q => ((c.tc : Thread nD τ).loc b) ↦{q} V b
  -- each window's array, in that form
  have hΘ : ∀ w, ((cfg.win w).arr.view.loc (c.tc : Thread nD τ) ↦[(cfg.win w).arr.view.set]{dat.share w} F w : sProp 𝕄)
      = Ψ (arrRef cfg.spec w) (dat.share w) := fun w => by
    rw [(harr w).set_eq_univ, hF]
  -- the arrays are already all met among the windows other than `w₀`, on which the array map is injective
  have himg : Finset.univ.image (arrRef cfg.spec) = (Finset.univ.erase w₀).image (arrRef cfg.spec) := by
    apply Finset.Subset.antisymm
    · intro b hb
      obtain ⟨w, -, rfl⟩ := Finset.mem_image.mp hb
      by_cases h : w = w₀
      · exact Finset.mem_image.mpr ⟨w₁, Finset.mem_erase.mpr ⟨hne.symm, Finset.mem_univ _⟩, by rw [h]; exact hsame.symm⟩
      · exact Finset.mem_image.mpr ⟨w, Finset.mem_erase.mpr ⟨h, Finset.mem_univ _⟩, rfl⟩
    · exact Finset.image_subset_image (Finset.erase_subset _ _)
  have hinjOn : Set.InjOn (arrRef cfg.spec) (↑(Finset.univ.erase w₀) : Set (Fin cfg.W)) := fun w hw w' hw' h =>
    hinj w w' (Finset.ne_of_mem_erase (Finset.mem_coe.mp hw)) (Finset.ne_of_mem_erase (Finset.mem_coe.mp hw')) h
  have h₁ : w₁ ∈ Finset.univ.erase w₀ := Finset.mem_erase.mpr ⟨hne.symm, Finset.mem_univ _⟩
  -- the windows other than the two keep the full share: there the two sides agree window by window
  have hrest : bigSep ((Finset.univ.erase w₀).erase w₁) (fun w => Ψ (arrRef cfg.spec w) fullShare)
      = bigSep ((Finset.univ.erase w₀).erase w₁)
          (fun w => ((cfg.win w).arr.view.loc (c.tc : Thread nD τ) ↦[(cfg.win w).arr.view.set]{dat.share w} F w : sProp 𝕄)) :=
    bigSep_congr fun w hw => by
      have hw₁ : w ≠ w₁ := Finset.ne_of_mem_erase hw
      have hw₀ : w ≠ w₀ := Finset.ne_of_mem_erase (Finset.mem_of_mem_erase hw)
      rw [hΘ w, hs w hw₀ hw₁]
  unfold arrBufs Dat.arrays
  rw [himg, bigSep_image_of_injOn hinjOn, bigSep_erase h₁,
    bigSep_erase (Finset.mem_univ w₀) (Φ := fun w => ((cfg.win w).arr.view.loc (c.tc : Thread nD τ) ↦[(cfg.win w).arr.view.set]{dat.share w} F w : sProp 𝕄)),
    bigSep_erase h₁ (Φ := fun w => ((cfg.win w).arr.view.loc (c.tc : Thread nD τ) ↦[(cfg.win w).arr.view.set]{dat.share w} F w : sProp 𝕄)),
    ← hrest, hΘ w₀, hΘ w₁, hs₀, hs₁, hsame]
  -- the common buffer: full share on the left, its two halves on the right
  show iprop(Ψ (arrRef cfg.spec w₁) fullShare ∗ bigSep ((Finset.univ.erase w₀).erase w₁) fun w => Ψ (arrRef cfg.spec w) fullShare)
    = iprop(Ψ (arrRef cfg.spec w₁) fullShare.left ∗ Ψ (arrRef cfg.spec w₁) fullShare.right
        ∗ bigSep ((Finset.univ.erase w₀).erase w₁) fun w => Ψ (arrRef cfg.spec w) fullShare)
  rw [show Ψ (arrRef cfg.spec w₁) fullShare = iprop(Ψ (arrRef cfg.spec w₁) fullShare.left ∗ Ψ (arrRef cfg.spec w₁) fullShare.right) from
    pointsTo_full_halves _ _]
  exact sep_assoc_eq _ _ _

/-- A core's unscoped buffers at contents `V` are the pipeline's arrays at the contents read off `V`, and the
    unscoped rest — under `arrBufs_eq_arrays`'s hypotheses, no array being scoped (`hunscoped`). -/
theorem unscopedBufs_eq_arrays (w₀ w₁ : Fin cfg.W) (hne : w₀ ≠ w₁)
    (hsame : arrRef cfg.spec w₀ = arrRef cfg.spec w₁)
    (hinj : ∀ w w', w ≠ w₀ → w' ≠ w₀ → arrRef cfg.spec w = arrRef cfg.spec w' → w = w')
    (hunscoped : ∀ w, (arrRef cfg.spec w).isScoped = false)
    (harr : ∀ w, (cfg.spec w).arr.IsWhole)
    (hs₀ : dat.share w₀ = fullShare.left) (hs₁ : dat.share w₁ = fullShare.right)
    (hs : ∀ w, w ≠ w₀ → w ≠ w₁ → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    (unscopedBufs c V : sProp 𝕄) = iprop(dat.arrays F ∗ unscopedRest cfg.spec c V) := by
  rw [Pipeline.unscopedBufs_split₀ (fun _ : Unit => cfg) () hunscoped c V,
    arrBufs_eq_arrays dat w₀ w₁ hne hsame hinj harr hs₀ hs₁ hs V F hF]

/-- The unscoped rest does not see the arrays: two valuations that agree off them give the same rest. -/
theorem unscopedRest_congr {gr W : Nat} (win : Fin W → Pipeline.WinSpec sig gr) (c : Dev nD)
    (V V' : (b : Ref sig .tc) → Buf Val ((c.tc : Thread nD τ).loc b))
    (hrest : ∀ b, b ∉ Finset.univ.image (arrRef win) → V' b = V b) :
    (unscopedRest win c V' : sProp 𝕄) = unscopedRest win c V := by
  unfold unscopedRest
  exact bigSep_congr fun b hb => by rw [hrest b (Finset.mem_sdiff.mp hb).2]

/-- An input window's array is held at the window's own share, -/
theorem share_in (w : Fin cfg.W) (h : (cfg.win w).isOut = false) : dat.share w = dat.q w := by
  unfold Dat.share; rw [h]; exact if_neg Bool.false_ne_true

/-- and an output window's at the full share. -/
theorem share_out (w : Fin cfg.W) (h : (cfg.win w).isOut = true) : dat.share w = fullShare := by
  unfold Dat.share; rw [h]; exact if_pos rfl

end Cert.Lib.SharedArrays
-- ==== Proof.K.Run.lean ====
/- The whole run of @main: three kernel regions among stretches of host operations.

   Between two items of @main the core holds every unscoped buffer whole, at contents named stretch by stretch.
   Each region is entered from that state and left at the next one: its windows' arrays are split out of the
   core's buffers, handed to the pipeline with the body obligation, and joined back at their final contents. The
   third region reads ONE array through two windows: the buffer behind it is held once by the core and once per
   window by the pipeline, at the two halves of the full share, which rejoin at the exit because input windows
   leave their array as they found it. The launch then gives: every weakly fair execution terminates, and every
   unscoped buffer ends at the last state's contents. -/
import proofs.«101821_j76244259438916_1_alg».proof.Proof.K.Stages
import proofs.«101821_j76244259438916_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

/-- No core owes another anything: no level is assigned. -/
abbrev L0 : GSem nD τ sig → Finset Unit := fun _ => ∅
abbrev lv0 : GSem nD τ sig → Unit → ℕ := fun _ _ => 0
/-- Beside the buffers, through every item: the generator register at some state, and nothing owed. -/
abbrev Rst (c : Dev nD) : sProp 𝕄 := iprop((∃ r, prngReg c r) ∗ ∃ W, owes (c : Thread nD τ) (0 : CellTallies nD τ sig Unit) W)
abbrev Est : Fin 4 → Dev nD → sProp 𝕄 := fun _ c => Rst c

/-! ## Region 0 -/

theorem hF0 (c : Dev nD) (w : Fin cfg0.W) : (dat0 (E0 m) c).arrAt w cfg0.N = V4 m (outsK m) c (Pipeline.arrRef spec0 w) :=
  match w with
  | ⟨0, _⟩ => ((dat0 (E0 m) c).arrAt_in 0 rfl _).trans ((A_eq0 (E0 m) c 0).trans (V4_of m (outsK m) c main_arg0 (by decide)).symm)
  | ⟨1, _⟩ => ((dat0 (E0 m) c).arrAt_in 1 rfl _).trans ((A_eq0 (E0 m) c 1).trans (V4_of m (outsK m) c main_v30 (by decide)).symm)
  | ⟨2, _⟩ => by
    show o4 m c = Function.update (V3 m c) main_v31 (outsK m 4 main_v31 c) main_v31
    rw [Function.update_self, outsK_v31]

theorem hrest0 (c : Dev nD) : ∀ b, b ∉ Finset.univ.image (Pipeline.arrRef spec0) → V4 m (outsK m) c b = V3 m c b :=
  fun b hb => V4_of m (outsK m) c b fun h => hb (by
    rw [List.mem_singleton.mp h]; exact Finset.mem_image.mpr ⟨2, Finset.mem_univ _, rfl⟩)

set_option backward.isDefEq.respectTransparency.types false in
/-- Region 0 between the states before and after it. -/
def regA : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L0 lv0 0 fun _ _ => rfl
  pre c := iprop(StableHlo.held (c : Thread nD τ) (Pipeline.ucRefs τ sig) (V3 m c) ∗ Est 0 c)
  post c := iprop(StableHlo.held (c : Thread nD τ) (Pipeline.ucRefs τ sig) (V4 m (outsK m) c) ∗ Est 1 c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V4 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem hF1 (c : Dev nD) (w : Fin cfg1.W) : (dat1 (E1 m) c).arrAt w cfg1.N = V6 m (outsK m) c (Pipeline.arrRef spec1 w) :=
  match w with
  | ⟨0, _⟩ => ((dat1 (E1 m) c).arrAt_in 0 rfl _).trans ((A_eq1 (E1 m) c 0).trans
      ((congrFun (V5_outsK m c) main_v66).symm.trans (V6_of m (outsK m) c main_v66 (by decide)).symm))
  | ⟨1, _⟩ => ((dat1 (E1 m) c).arrAt_in 1 rfl _).trans ((A_eq1 (E1 m) c 1).trans
      ((congrFun (V5_outsK m c) main_v67).symm.trans (V6_of m (outsK m) c main_v67 (by decide)).symm))
  | ⟨2, _⟩ => by
    show o6 m c = Function.update (V5 m (outsK m) c) main_v68 (outsK m 6 main_v68 c) main_v68
    rw [Function.update_self, outsK_v68]

theorem hrest1 (c : Dev nD) : ∀ b, b ∉ Finset.univ.image (Pipeline.arrRef spec1) → V6 m (outsK m) c b = E1 m c b :=
  fun b hb => (V6_of m (outsK m) c b fun h => hb (by
    rw [List.mem_singleton.mp h]; exact Finset.mem_image.mpr ⟨2, Finset.mem_univ _, rfl⟩)).trans (congrFun (V5_outsK m c) b)

set_option backward.isDefEq.respectTransparency.types false in
/-- Region 1 between the states before and after it. -/
def regB : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L0 lv0 1 fun _ _ => rfl
  pre c := iprop(StableHlo.held (c : Thread nD τ) (Pipeline.ucRefs τ sig) (V5 m (outs1 m) c) ∗ Est 1 c)
  post c := iprop(StableHlo.held (c : Thread nD τ) (Pipeline.ucRefs τ sig) (V6 m (outsK m) c) ∗ Est 2 c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V6 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: two windows on one array -/

theorem shareC0 (c : Dev nD) : (dat2 (E2 m) c).share 0 = fullShare.left :=
  (Cert.Lib.SharedArrays.share_in _ 0 rfl).trans (by dsimp only [dat2])
theorem shareC1 (c : Dev nD) : (dat2 (E2 m) c).share 1 = fullShare.right :=
  (Cert.Lib.SharedArrays.share_in _ 1 rfl).trans (by dsimp only [dat2])
theorem shareC (c : Dev nD) : ∀ w : Fin cfg2.W, w ≠ 0 → w ≠ 1 → (dat2 (E2 m) c).share w = fullShare := fun w h0 h1 =>
  match w, h0, h1 with
  | ⟨0, _⟩, h0, _ => absurd rfl h0
  | ⟨1, _⟩, _, h1 => absurd rfl h1
  | ⟨2, _⟩, _, _ => Cert.Lib.SharedArrays.share_out _ 2 rfl

/-- The core's buffers at contents Vx are region 2's arrays at the contents read off Vx, beside the rest: the
    array behind both input windows is held once on the left and at its two half shares on the right. -/
theorem splitC (c : Dev nD) (Vx : (b : Ref sig .tc) → Buf (Elt F) ((c : Thread nD τ).loc b))
    (Fx : (w : Fin cfg2.W) → Buf (Elt F) ((cfg2.win w).arr.view.loc (c : Thread nD τ))) (hFx : ∀ w, Fx w = Vx (Pipeline.arrRef cfg2.spec w)) :
    (unscopedBufs c Vx : sProp 𝕄) = iprop((dat2 (E2 m) c).arrays Fx ∗ Pipeline.unscopedRest cfg2.spec c Vx) :=
  Cert.Lib.SharedArrays.unscopedBufs_eq_arrays (dat2 (E2 m) c) 0 1 (by decide) rfl (by decide) (by decide) arr_whole2
    (shareC0 m c) (shareC1 m c) (shareC m c) Vx Fx hFx

theorem hF2 (c : Dev nD) (w : Fin cfg2.W) : (dat2 (E2 m) c).arrAt w cfg2.N = V8 m (outsK m) c (Pipeline.arrRef cfg2.spec w) :=
  match w with
  | ⟨0, _⟩ => ((dat2 (E2 m) c).arrAt_in 0 rfl _).trans ((A_eq2 (E2 m) c 0).trans
      ((congrFun (V7_outsK m c) main_v86).symm.trans (V8_of m (outsK m) c main_v86 (by decide)).symm))
  | ⟨1, _⟩ => ((dat2 (E2 m) c).arrAt_in 1 rfl _).trans ((A_eq2 (E2 m) c 1).trans
      ((congrFun (V7_outsK m c) main_v86).symm.trans (V8_of m (outsK m) c main_v86 (by decide)).symm))
  | ⟨2, _⟩ => by
    show o8 m c = Function.update (V7 m (outsK m) c) main_v103 (outsK m 8 main_v103 c) main_v103
    rw [Function.update_self, outsK_v103]

theorem hrest2 (c : Dev nD) : ∀ b, b ∉ Finset.univ.image (Pipeline.arrRef cfg2.spec) → V8 m (outsK m) c b = E2 m c b :=
  fun b hb => (V8_of m (outsK m) c b fun h => hb (by
    rw [List.mem_singleton.mp h]; exact Finset.mem_image.mpr ⟨2, Finset.mem_univ _, rfl⟩)).trans (congrFun (V7_outsK m c) b)

set_option backward.isDefEq.respectTransparency.types false in
/-- Region 2 between the states before and after it. -/
def regC : RegionSeg (pcfgs (F := F)) adm (pdats m) () defs₀ Variants.none L0 lv0 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L0 lv0 2 fun _ _ => rfl
  pre c := iprop(StableHlo.held (c : Thread nD τ) (Pipeline.ucRefs τ sig) (V7 m (outs2 m) c) ∗ Est 2 c)
  post c := iprop(StableHlo.held (c : Thread nD τ) (Pipeline.ucRefs τ sig) (V8 m (outsK m) c) ∗ Est 3 c)
  X c := iprop(∃ r, prngReg c r)
  Y c := iprop(∃ r, prngReg c r)
  Z c := Pipeline.unscopedRest (Ix := Unit) (Name := ℕ) (U := UR sig nD τ) (Lvl := ℕ) cfg2.spec c (E2 m c)
  hentry c := by
    rw [Pipeline.ownSems0_none]
    have hsplit := splitC m c (E2 m c) ((pdats m 2 c).arrAt · 0) (fun _ => rfl)
    rw [Pipeline.unscopedBufs_held] at hsplit
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := splitC m c (fun b => V8 m (outsK m) c b) ((pdats m 2 c).arrAt · cfg2.N) (hF2 m c)
    rw [Pipeline.unscopedBufs_held,
      Cert.Lib.SharedArrays.unscopedRest_congr cfg2.spec c (E2 m c) (fun b => V8 m (outsK m) c b) (hrest2 m c)] at hjoin
    iintro ⟨Ha, HO, HY, Hrest⟩
    imodintro
    isplitl [Ha Hrest]
    · iapply (Entails.of_eq hjoin.symm)
      isplitl [Ha]; · iexact Ha
      iexact Hrest
    isplitl [HY]; · iexact HY
    unfold Pipeline.Dat.owesAt Pipeline.owesWithin
    icases HO with ⟨%W, -, HO⟩; iexists W; iexact HO

/-! ## The launch -/

/-- What rides beside the buffers ends owing nothing. -/
theorem Rst_owes (c : Dev nD) : (Rst c : sProp 𝕄) ⊢ iprop(∃ W, owes (c : Thread nD τ) (0 : CellTallies nD τ sig Unit) W) := by
  iintro ⟨-, H⟩; iexact H

/-- An unscoped TensorCore reference is among those the states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, nothing faulting, and every
    unscoped buffer ends at the last state's contents: the arguments as launched, each host result at its
    operations' term, each region's result array at what the region leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outsK m) c b) := by
  refine Pipeline.θ_run_regions_kit_dev (pcfgs (F := F)) adm (pdats m) () cellOf_inj emb₁ defs₀ Variants.none L0 lv0 m ρ main
    (segs m (outsK m) Variants.none L0 lv0 Est () (pdats m) (regA m) (regB m) (regC m))
    (fun c Q => by
      rewrite [main_chain c, Seg.run_eq_chain,
        show (segs m (outsK m) Variants.none L0 lv0 Est () (pdats m) (regA m) (regB m) (regC m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Est 0 c))
    (Tₙ := fun c => StableHlo.held (c : Thread nD τ) (Pipeline.ucRefs τ sig) (V8 m (outsK m) c))
    (hch := fun c => ⟨.rfl, .rfl, .rfl, .rfl, .rfl,
      Entails.of_eq (congrArg (fun W => iprop(StableHlo.held (c : Thread nD τ) (Pipeline.ucRefs τ sig) W ∗ Est 1 c)) (V5_outsK m c)), .rfl,
      Entails.of_eq (congrArg (fun W => iprop(StableHlo.held (c : Thread nD τ) (Pipeline.ucRefs τ sig) W ∗ Est 2 c)) (V7_outsK m c)),
      sep_mono .rfl (Rst_owes c)⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V8 m (outsK m) c b)
    (hfin := fun c s' => by
      iintro ⟨Hh, HSI⟩
      unfold StableHlo.held
      imodintro
      iapply (pointsTo_read_all (Pipeline.ucRefs τ sig) (fun b => (((c : Thread nD τ)).1, b)) (V8 m (outsK m) c) s')
      isplitl [Hh] <;> iassumption)
    (hQ := fun s h c => h c)

/-- The frame: every weakly fair execution terminates, nothing faulting, and every argument array ends as launched
    (no host stretch writes an argument and no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V8_main_arg0 m (outsK m) c),
     (h c _ (mem_uc main_arg1 (by decide))).trans (V8_main_arg1 m (outsK m) c),
     (h c _ (mem_uc main_arg2 (by decide))).trans (V8_main_arg2 m (outsK m) c),
     (h c _ (mem_uc main_arg3 (by decide))).trans (V8_main_arg3 m (outsK m) c),
     (h c _ (mem_uc main_arg4 (by decide))).trans (V8_main_arg4 m (outsK m) c),
     (h c _ (mem_uc main_arg5 (by decide))).trans (V8_main_arg5 m (outsK m) c),
     (h c _ (mem_uc main_arg6 (by decide))).trans (V8_main_arg6 m (outsK m) c),
     (h c _ (mem_uc main_arg7 (by decide))).trans (V8_main_arg7 m (outsK m) c),
     (h c _ (mem_uc main_arg8 (by decide))).trans (V8_main_arg8 m (outsK m) c),
     (h c _ (mem_uc main_arg9 (by decide))).trans (V8_main_arg9 m (outsK m) c)⟩) (run_all m ρ)

/-- The run with its results: the three result buffers end at the last state's contents, the arguments as launched. -/
theorem run_results : θ_run defs (onTc (τ := τ) (main (F := F))) ⟨m, fun _ => 0, ρ⟩ (fun r => ∀ c : Dev nD,
      r.2.mem ((c.tc : Thread nD τ).loc main_v103) = V8 m (outsK m) c main_v103
      ∧ r.2.mem ((c.tc : Thread nD τ).loc main_v86) = V8 m (outsK m) c main_v86
      ∧ r.2.mem ((c.tc : Thread nD τ).loc main_v102) = V8 m (outsK m) c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v103 (by decide)), h c _ (mem_uc main_v86 (by decide)), h c _ (mem_uc main_v102 (by decide)),
     (h c _ (mem_uc main_arg0 (by decide))).trans (V8_main_arg0 m (outsK m) c),
     (h c _ (mem_uc main_arg1 (by decide))).trans (V8_main_arg1 m (outsK m) c),
     (h c _ (mem_uc main_arg2 (by decide))).trans (V8_main_arg2 m (outsK m) c),
     (h c _ (mem_uc main_arg3 (by decide))).trans (V8_main_arg3 m (outsK m) c),
     (h c _ (mem_uc main_arg4 (by decide))).trans (V8_main_arg4 m (outsK m) c),
     (h c _ (mem_uc main_arg5 (by decide))).trans (V8_main_arg5 m (outsK m) c),
     (h c _ (mem_uc main_arg6 (by decide))).trans (V8_main_arg6 m (outsK m) c),
     (h c _ (mem_uc main_arg7 (by decide))).trans (V8_main_arg7 m (outsK m) c),
     (h c _ (mem_uc main_arg8 (by decide))).trans (V8_main_arg8 m (outsK m) c),
     (h c _ (mem_uc main_arg9 (by decide))).trans (V8_main_arg9 m (outsK m) c)⟩) (run_all m ρ)

end Cert.Kernel.Hand

end
-- ==== Proof.KI.Region0.lean ====
/- Region 0: the first linear projection, one grid axis of 8 points. At point t the body multiplies rows
   [1024 t, 1024 (t+1)) of the left operand (window 0) by the whole right operand (window 1, fetched once) and
   stores the product as block t of the result (window 2). This module states what each window's staging buffer
   holds after the body at a point, runs the body once on arbitrary whole staging buffers, and packages both as
   the pipeline's proof data and body obligation, at any entry contents V of the core's buffers. -/
import proofs.«101821_j76244259438916_1_alg».proof.Proof.Gen.KernelIdeal.Launch
import proofs.«101821_j76244259438916_1_alg».proof.Proof.Gen.KernelIdeal.Skeleton
import proofs.«101821_j76244259438916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point (it is fetched at every point), for any
    proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point: fetched at the first point, its
    block index never moves afterwards and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S1024x256 := Rect.unit (s := S1024x256) ![0, 0] S1024x256.size inb_S1024x256_S1024x256_0_0
abbrev rW0 : Rect S256x256 := Rect.unit (s := S256x256) ![0, 0] S256x256.size inb_S256x256_S256x256_0_0
abbrev rO0 : Rect S1024x256 := Rect.unit (s := S1024x256) ![0, 0] S1024x256.size inb_S1024x256_S1024x256_0_0

/-- The result window's staging buffer after the body: one store, of the product of the two loaded blocks. -/
def out0 (x0 : Vec F S1024x256 .f32) (x1 : Vec F S256x256 .f32) : Vec F S1024x256 .f32 :=
  View.canon [⟨rO0, k0_pay1 (View.ld x0 rX0) (View.ld x1 rW0)⟩]

/-- The one store covers the buffer. -/
theorem cover0 (p0 : Vec F S1024x256 .f32) (y : S1024x256.Idx) :
    ∃ pc ∈ ([⟨rO0, p0⟩] : List (View.Piece (Elt F) S1024x256 .f32)), y ∈ pc.1.set :=
  View.cover_of_tiled [⟨rO0, p0⟩] S1024x256.size (by rfl) y

set_option maxHeartbeats 4000000 in
/-- The body on whole staging buffers: the inputs keep their contents, the result buffer ends at out0 of them. -/
theorem sound_kernel0 (c : Dev nD) (E : Set ℕ) (i : grid0.Coords)
    (arg1 : Memref sig .tc .vmem S1024x256 .f32) (harg1 : arg1.IsWhole)
    (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The pipeline's proof data on core c: the arrays as the region finds them; after the body at point t each
    input's buffer still at its block and the result's at out0 of the two input blocks; the invariant holds the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' staging buffers hold their blocks, so the body's run applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- Region 1: the second linear projection, one grid axis of 8 points. At point t the body multiplies rows
   [1024 t, 1024 (t+1)) of the [8192,256] left operand (window 0) by the whole [256,128] right operand (window 1,
   fetched once) and stores the product as block t of the [8192,128] result (window 2). What each window's staging
   buffer holds after the body at a point, the body's run on arbitrary whole staging buffers, and both packaged as
   the pipeline's proof data and body obligation, at any entry contents V of the core's buffers. -/
import proofs.«101821_j76244259438916_1_alg».proof.Proof.Gen.KernelIdeal.Launch
import proofs.«101821_j76244259438916_1_alg».proof.Proof.Gen.KernelIdeal.Skeleton
import proofs.«101821_j76244259438916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point (it is fetched at every point), for any
    proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds the whole operand at every point: fetched at the first point, its
    block index never moves afterwards and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S1024x256 := Rect.unit (s := S1024x256) ![0, 0] S1024x256.size inb_S1024x256_S1024x256_0_0
abbrev rW1 : Rect S256x128 := Rect.unit (s := S256x128) ![0, 0] S256x128.size inb_S256x128_S256x128_0_0
abbrev rO1 : Rect S1024x128 := Rect.unit (s := S1024x128) ![0, 0] S1024x128.size inb_S1024x128_S1024x128_0_0

/-- The result window's staging buffer after the body: one store, of the product of the two loaded blocks. -/
def out1 (x0 : Vec F S1024x256 .f32) (x1 : Vec F S256x128 .f32) : Vec F S1024x128 .f32 :=
  View.canon [⟨rO1, k1_pay1 (View.ld x0 rX1) (View.ld x1 rW1)⟩]

/-- The one store covers the buffer. -/
theorem cover1 (p0 : Vec F S1024x128 .f32) (y : S1024x128.Idx) :
    ∃ pc ∈ ([⟨rO1, p0⟩] : List (View.Piece (Elt F) S1024x128 .f32)), y ∈ pc.1.set :=
  View.cover_of_tiled [⟨rO1, p0⟩] S1024x128.size (by rfl) y

set_option maxHeartbeats 4000000 in
/-- The body on whole staging buffers: the inputs keep their contents, the result buffer ends at out1 of them. -/
theorem sound_kernel1 (c : Dev nD) (E : Set ℕ) (i : grid1.Coords)
    (arg1 : Memref sig .tc .vmem S1024x256 .f32) (harg1 : arg1.IsWhole)
    (arg2 : Memref sig .tc .vmem S256x128 .f32) (harg2 : arg2.IsWhole)
    (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The pipeline's proof data on core c: the arrays as the region finds them; after the body at point t each
    input's buffer still at its block and the result's at out1 of the two input blocks; the invariant holds the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' staging buffers hold their blocks, so the body's run applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/- Region 2: the decoder, a grid of 8 by 8 points. At point (i, j) the body takes rows [1024 i, 1024 (i+1)) of
   the embedding (window 0, fetched when j = 0 and kept along the row of the grid) and rows [1024 j, 1024 (j+1)) of
   the SAME array (window 1, fetched at every point), forms their 1024 by 1024 table of inner products, applies the
   logistic function and stores the result as block (i, j) of the output (window 2). Both input windows read one
   array: the pipeline holds it once per window, window 0 at the left half of the full share and window 1 at the
   right half. What each window's staging buffer holds after the body, the body's run on whole staging buffers,
   and both packaged as the pipeline's proof data and body obligation, at any entry contents V. -/
import proofs.«101821_j76244259438916_1_alg».proof.Proof.Gen.KernelIdeal.Launch
import proofs.«101821_j76244259438916_1_alg».proof.Proof.Gen.KernelIdeal.Skeleton
import proofs.«101821_j76244259438916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row operand's staging buffer holds its block at every point: fetched at the first point of each grid row,
    its block index does not move along the row and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column operand's staging buffer holds its block at every point (it is fetched at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rX2 : Rect S1024x64 := Rect.unit (s := S1024x64) ![0, 0] S1024x64.size inb_S1024x64_S1024x64_0_0
abbrev rW2 : Rect S1024x64 := Rect.unit (s := S1024x64) ![0, 0] S1024x64.size inb_S1024x64_S1024x64_0_0
abbrev rO2 : Rect S1024x1024 := Rect.unit (s := S1024x1024) ![0, 0] S1024x1024.size inb_S1024x1024_S1024x1024_0_0

/-- The result window's staging buffer after the body: one store, of the logistic function of the inner products
    of the rows of the two loaded blocks. -/
def out2 (x0 : Vec F S1024x64 .f32) (x1 : Vec F S1024x64 .f32) : Vec F S1024x1024 .f32 :=
  View.canon [⟨rO2, k2_pay1 (View.ld x0 rX2) (View.ld x1 rW2)⟩]

/-- The one store covers the buffer. -/
theorem cover2 (p0 : Vec F S1024x1024 .f32) (y : S1024x1024.Idx) :
    ∃ pc ∈ ([⟨rO2, p0⟩] : List (View.Piece (Elt F) S1024x1024 .f32)), y ∈ pc.1.set :=
  View.cover_of_tiled [⟨rO2, p0⟩] S1024x1024.size (by rfl) y

set_option maxHeartbeats 4000000 in
/-- The body on whole staging buffers: the inputs keep their contents, the result buffer ends at out2 of them. -/
theorem sound_kernel2 (c : Dev nD) (E : Set ℕ) (i : grid2.Coords)
    (arg2 : Memref sig .tc .vmem S1024x64 .f32) (harg2 : arg2.IsWhole)
    (arg3 : Memref sig .tc .vmem S1024x64 .f32) (harg3 : arg3.IsWhole)
    (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core c: the arrays as the region finds them; after the body at point t each
    input's buffer still at its block and the result's at out2 of the two input blocks; the invariant holds the
    scoped buffers no window stages and the generator register, untouched; nothing owed; the two input windows
    hold their common array at the left and the right half of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' staging buffers hold their blocks, so the body's run applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Stages.lean ====
/- What the three kernel regions leave, stage by stage. Between two items of @main the core's buffers are named
   by the generated valuations (launch; each host stretch applied; a region's result array replaced by what the
   region leaves). Here the contents a region leaves are FIXED: the fold of its write-backs over its proof data,
   each region's proof data taken at the contents the earlier stages produce. A later stage does not change what
   an earlier one is entered from. -/
import proofs.«101821_j76244259438916_1_alg».proof.Proof.KI.Region0
import proofs.«101821_j76244259438916_1_alg».proof.Proof.KI.Region1
import proofs.«101821_j76244259438916_1_alg».proof.Proof.KI.Region2
import proofs.«101821_j76244259438916_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, stage by stage -/

/-- The contents region 0 is entered from, read at the TensorCore's references. -/
abbrev E0 : (c : Dev nD) → (b : Ref sig .tc) → Buf (Elt F) ((c : Thread nD τ).loc b) := fun c b => V3 m c b
/-- What region 0's write-backs leave in its result array. -/
def o4 (c : Dev nD) : Buf (Elt F) ((c : Thread nD τ).loc main_v31) := (dat0 (E0 m) c).arrAt 2 cfg0.N
/-- The regions' results so far: region 0's. -/
def outs1 : Outs (F := F) := fun _ r c => Function.update (V0 m c) main_v31 (o4 m c) r
/-- The contents region 1 is entered from. -/
abbrev E1 : (c : Dev nD) → (b : Ref sig .tc) → Buf (Elt F) ((c : Thread nD τ).loc b) := fun c b => V5 m (outs1 m) c b
/-- What region 1's write-backs leave in its result array. -/
def o6 (c : Dev nD) : Buf (Elt F) ((c : Thread nD τ).loc main_v68) := (dat1 (E1 m) c).arrAt 2 cfg1.N
/-- The regions' results so far: regions 0 and 1's. -/
def outs2 : Outs (F := F) := fun _ r c => Function.update (Function.update (V0 m c) main_v31 (o4 m c)) main_v68 (o6 m c) r
/-- The contents region 2 is entered from. -/
abbrev E2 : (c : Dev nD) → (b : Ref sig .tc) → Buf (Elt F) ((c : Thread nD τ).loc b) := fun c b => V7 m (outs2 m) c b
/-- What region 2's write-backs leave in its result array. -/
def o8 (c : Dev nD) : Buf (Elt F) ((c : Thread nD τ).loc main_v103) := (dat2 (E2 m) c).arrAt 2 cfg2.N
/-- The three regions' results. -/
def outsK : Outs (F := F) := fun _ r c =>
  Function.update (Function.update (Function.update (V0 m c) main_v31 (o4 m c)) main_v68 (o6 m c)) main_v103 (o8 m c) r

theorem outs1_v31 (n : ℕ) (c : Dev nD) : outs1 m n main_v31 c = o4 m c := by
  unfold outs1; exact Function.update_self _ _ _
theorem outs2_v31 (n : ℕ) (c : Dev nD) : outs2 m n main_v31 c = o4 m c := by
  unfold outs2
  rw [Function.update_of_ne (StableHlo.devRef_ne_of_ne (by decide) : (Proc.devRef .tc main_v31 : DevRef τ sig) ≠ Proc.devRef .tc main_v68)]
  exact Function.update_self _ _ _
theorem outs2_v68 (n : ℕ) (c : Dev nD) : outs2 m n main_v68 c = o6 m c := by
  unfold outs2; exact Function.update_self _ _ _
theorem outsK_v31 (n : ℕ) (c : Dev nD) : outsK m n main_v31 c = o4 m c := by
  unfold outsK
  rw [Function.update_of_ne (StableHlo.devRef_ne_of_ne (by decide) : (Proc.devRef .tc main_v31 : DevRef τ sig) ≠ Proc.devRef .tc main_v103),
    Function.update_of_ne (StableHlo.devRef_ne_of_ne (by decide) : (Proc.devRef .tc main_v31 : DevRef τ sig) ≠ Proc.devRef .tc main_v68)]
  exact Function.update_self _ _ _
theorem outsK_v68 (n : ℕ) (c : Dev nD) : outsK m n main_v68 c = o6 m c := by
  unfold outsK
  rw [Function.update_of_ne (StableHlo.devRef_ne_of_ne (by decide) : (Proc.devRef .tc main_v68 : DevRef τ sig) ≠ Proc.devRef .tc main_v103)]
  exact Function.update_self _ _ _
theorem outsK_v103 (n : ℕ) (c : Dev nD) : outsK m n main_v103 c = o8 m c := by
  unfold outsK; exact Function.update_self _ _ _

/-- The later stages do not change what the earlier ones are entered from. -/
theorem V5_outsK (c : Dev nD) : V5 m (outsK m) c = V5 m (outs1 m) c := by
  show StableHlo.after hostOps1 (Function.update (V3 m c) main_v31 (outsK m 4 main_v31 c)) = StableHlo.after hostOps1 (Function.update (V3 m c) main_v31 (outs1 m 4 main_v31 c))
  rw [outsK_v31, outs1_v31]
theorem V5_outs2 (c : Dev nD) : V5 m (outs2 m) c = V5 m (outs1 m) c := by
  show StableHlo.after hostOps1 (Function.update (V3 m c) main_v31 (outs2 m 4 main_v31 c)) = StableHlo.after hostOps1 (Function.update (V3 m c) main_v31 (outs1 m 4 main_v31 c))
  rw [outs2_v31, outs1_v31]
theorem V7_outsK (c : Dev nD) : V7 m (outsK m) c = V7 m (outs2 m) c := by
  show StableHlo.after hostOps2 (Function.update (V5 m (outsK m) c) main_v68 (outsK m 6 main_v68 c)) = StableHlo.after hostOps2 (Function.update (V5 m (outs2 m) c) main_v68 (outs2 m 6 main_v68 c))
  rw [V5_outsK, V5_outs2, outsK_v68, outs2_v68]

end Cert.KernelIdeal.Hand

end
-- ==== Proof.KI.Run.lean ====
/- The whole run of @main: three kernel regions among stretches of host operations.

   Between two items of @main the core holds every unscoped buffer whole, at contents named stretch by stretch.
   Each region is entered from that state and left at the next one: its windows' arrays are split out of the
   core's buffers, handed to the pipeline with the body obligation, and joined back at their final contents. The
   third region reads ONE array through two windows: the buffer behind it is held once by the core and once per
   window by the pipeline, at the two halves of the full share, which rejoin at the exit because input windows
   leave their array as they found it. The launch then gives: every weakly fair execution terminates, and every
   unscoped buffer ends at the last state's contents. -/
import proofs.«101821_j76244259438916_1_alg».proof.Proof.KI.Stages
import proofs.«101821_j76244259438916_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

/-- No core owes another anything: no level is assigned. -/
abbrev L0 : GSem nD τ sig → Finset Unit := fun _ => ∅
abbrev lv0 : GSem nD τ sig → Unit → ℕ := fun _ _ => 0
/-- Beside the buffers, through every item: the generator register at some state, and nothing owed. -/
abbrev Rst (c : Dev nD) : sProp 𝕄 := iprop((∃ r, prngReg c r) ∗ ∃ W, owes (c : Thread nD τ) (0 : CellTallies nD τ sig Unit) W)
abbrev Est : Fin 4 → Dev nD → sProp 𝕄 := fun _ c => Rst c

/-! ## Region 0 -/

theorem hF0 (c : Dev nD) (w : Fin cfg0.W) : (dat0 (E0 m) c).arrAt w cfg0.N = V4 m (outsK m) c (Pipeline.arrRef spec0 w) :=
  match w with
  | ⟨0, _⟩ => ((dat0 (E0 m) c).arrAt_in 0 rfl _).trans ((A_eq0 (E0 m) c 0).trans (V4_of m (outsK m) c main_arg0 (by decide)).symm)
  | ⟨1, _⟩ => ((dat0 (E0 m) c).arrAt_in 1 rfl _).trans ((A_eq0 (E0 m) c 1).trans (V4_of m (outsK m) c main_v30 (by decide)).symm)
  | ⟨2, _⟩ => by
    show o4 m c = Function.update (V3 m c) main_v31 (outsK m 4 main_v31 c) main_v31
    rw [Function.update_self, outsK_v31]

theorem hrest0 (c : Dev nD) : ∀ b, b ∉ Finset.univ.image (Pipeline.arrRef spec0) → V4 m (outsK m) c b = V3 m c b :=
  fun b hb => V4_of m (outsK m) c b fun h => hb (by
    rw [List.mem_singleton.mp h]; exact Finset.mem_image.mpr ⟨2, Finset.mem_univ _, rfl⟩)

set_option backward.isDefEq.respectTransparency.types false in
/-- Region 0 between the states before and after it. -/
def regA : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L0 lv0 0 fun _ _ => rfl
  pre c := iprop(StableHlo.held (c : Thread nD τ) (Pipeline.ucRefs τ sig) (V3 m c) ∗ Est 0 c)
  post c := iprop(StableHlo.held (c : Thread nD τ) (Pipeline.ucRefs τ sig) (V4 m (outsK m) c) ∗ Est 1 c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V4 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem hF1 (c : Dev nD) (w : Fin cfg1.W) : (dat1 (E1 m) c).arrAt w cfg1.N = V6 m (outsK m) c (Pipeline.arrRef spec1 w) :=
  match w with
  | ⟨0, _⟩ => ((dat1 (E1 m) c).arrAt_in 0 rfl _).trans ((A_eq1 (E1 m) c 0).trans
      ((congrFun (V5_outsK m c) main_v66).symm.trans (V6_of m (outsK m) c main_v66 (by decide)).symm))
  | ⟨1, _⟩ => ((dat1 (E1 m) c).arrAt_in 1 rfl _).trans ((A_eq1 (E1 m) c 1).trans
      ((congrFun (V5_outsK m c) main_v67).symm.trans (V6_of m (outsK m) c main_v67 (by decide)).symm))
  | ⟨2, _⟩ => by
    show o6 m c = Function.update (V5 m (outsK m) c) main_v68 (outsK m 6 main_v68 c) main_v68
    rw [Function.update_self, outsK_v68]

theorem hrest1 (c : Dev nD) : ∀ b, b ∉ Finset.univ.image (Pipeline.arrRef spec1) → V6 m (outsK m) c b = E1 m c b :=
  fun b hb => (V6_of m (outsK m) c b fun h => hb (by
    rw [List.mem_singleton.mp h]; exact Finset.mem_image.mpr ⟨2, Finset.mem_univ _, rfl⟩)).trans (congrFun (V5_outsK m c) b)

set_option backward.isDefEq.respectTransparency.types false in
/-- Region 1 between the states before and after it. -/
def regB : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L0 lv0 1 fun _ _ => rfl
  pre c := iprop(StableHlo.held (c : Thread nD τ) (Pipeline.ucRefs τ sig) (V5 m (outs1 m) c) ∗ Est 1 c)
  post c := iprop(StableHlo.held (c : Thread nD τ) (Pipeline.ucRefs τ sig) (V6 m (outsK m) c) ∗ Est 2 c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V6 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: two windows on one array -/

theorem shareC0 (c : Dev nD) : (dat2 (E2 m) c).share 0 = fullShare.left :=
  (Cert.Lib.SharedArrays.share_in _ 0 rfl).trans (by dsimp only [dat2])
theorem shareC1 (c : Dev nD) : (dat2 (E2 m) c).share 1 = fullShare.right :=
  (Cert.Lib.SharedArrays.share_in _ 1 rfl).trans (by dsimp only [dat2])
theorem shareC (c : Dev nD) : ∀ w : Fin cfg2.W, w ≠ 0 → w ≠ 1 → (dat2 (E2 m) c).share w = fullShare := fun w h0 h1 =>
  match w, h0, h1 with
  | ⟨0, _⟩, h0, _ => absurd rfl h0
  | ⟨1, _⟩, _, h1 => absurd rfl h1
  | ⟨2, _⟩, _, _ => Cert.Lib.SharedArrays.share_out _ 2 rfl

/-- The core's buffers at contents Vx are region 2's arrays at the contents read off Vx, beside the rest: the
    array behind both input windows is held once on the left and at its two half shares on the right. -/
theorem splitC (c : Dev nD) (Vx : (b : Ref sig .tc) → Buf (Elt F) ((c : Thread nD τ).loc b))
    (Fx : (w : Fin cfg2.W) → Buf (Elt F) ((cfg2.win w).arr.view.loc (c : Thread nD τ))) (hFx : ∀ w, Fx w = Vx (Pipeline.arrRef cfg2.spec w)) :
    (unscopedBufs c Vx : sProp 𝕄) = iprop((dat2 (E2 m) c).arrays Fx ∗ Pipeline.unscopedRest cfg2.spec c Vx) :=
  Cert.Lib.SharedArrays.unscopedBufs_eq_arrays (dat2 (E2 m) c) 0 1 (by decide) rfl (by decide) (by decide) arr_whole2
    (shareC0 m c) (shareC1 m c) (shareC m c) Vx Fx hFx

theorem hF2 (c : Dev nD) (w : Fin cfg2.W) : (dat2 (E2 m) c).arrAt w cfg2.N = V8 m (outsK m) c (Pipeline.arrRef cfg2.spec w) :=
  match w with
  | ⟨0, _⟩ => ((dat2 (E2 m) c).arrAt_in 0 rfl _).trans ((A_eq2 (E2 m) c 0).trans
      ((congrFun (V7_outsK m c) main_v86).symm.trans (V8_of m (outsK m) c main_v86 (by decide)).symm))
  | ⟨1, _⟩ => ((dat2 (E2 m) c).arrAt_in 1 rfl _).trans ((A_eq2 (E2 m) c 1).trans
      ((congrFun (V7_outsK m c) main_v86).symm.trans (V8_of m (outsK m) c main_v86 (by decide)).symm))
  | ⟨2, _⟩ => by
    show o8 m c = Function.update (V7 m (outsK m) c) main_v103 (outsK m 8 main_v103 c) main_v103
    rw [Function.update_self, outsK_v103]

theorem hrest2 (c : Dev nD) : ∀ b, b ∉ Finset.univ.image (Pipeline.arrRef cfg2.spec) → V8 m (outsK m) c b = E2 m c b :=
  fun b hb => (V8_of m (outsK m) c b fun h => hb (by
    rw [List.mem_singleton.mp h]; exact Finset.mem_image.mpr ⟨2, Finset.mem_univ _, rfl⟩)).trans (congrFun (V7_outsK m c) b)

set_option backward.isDefEq.respectTransparency.types false in
/-- Region 2 between the states before and after it. -/
def regC : RegionSeg (pcfgs (F := F)) adm (pdats m) () defs₀ Variants.none L0 lv0 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L0 lv0 2 fun _ _ => rfl
  pre c := iprop(StableHlo.held (c : Thread nD τ) (Pipeline.ucRefs τ sig) (V7 m (outs2 m) c) ∗ Est 2 c)
  post c := iprop(StableHlo.held (c : Thread nD τ) (Pipeline.ucRefs τ sig) (V8 m (outsK m) c) ∗ Est 3 c)
  X c := iprop(∃ r, prngReg c r)
  Y c := iprop(∃ r, prngReg c r)
  Z c := Pipeline.unscopedRest (Ix := Unit) (Name := ℕ) (U := UR sig nD τ) (Lvl := ℕ) cfg2.spec c (E2 m c)
  hentry c := by
    rw [Pipeline.ownSems0_none]
    have hsplit := splitC m c (E2 m c) ((pdats m 2 c).arrAt · 0) (fun _ => rfl)
    rw [Pipeline.unscopedBufs_held] at hsplit
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := splitC m c (fun b => V8 m (outsK m) c b) ((pdats m 2 c).arrAt · cfg2.N) (hF2 m c)
    rw [Pipeline.unscopedBufs_held,
      Cert.Lib.SharedArrays.unscopedRest_congr cfg2.spec c (E2 m c) (fun b => V8 m (outsK m) c b) (hrest2 m c)] at hjoin
    iintro ⟨Ha, HO, HY, Hrest⟩
    imodintro
    isplitl [Ha Hrest]
    · iapply (Entails.of_eq hjoin.symm)
      isplitl [Ha]; · iexact Ha
      iexact Hrest
    isplitl [HY]; · iexact HY
    unfold Pipeline.Dat.owesAt Pipeline.owesWithin
    icases HO with ⟨%W, -, HO⟩; iexists W; iexact HO

/-! ## The launch -/

/-- What rides beside the buffers ends owing nothing. -/
theorem Rst_owes (c : Dev nD) : (Rst c : sProp 𝕄) ⊢ iprop(∃ W, owes (c : Thread nD τ) (0 : CellTallies nD τ sig Unit) W) := by
  iintro ⟨-, H⟩; iexact H

/-- An unscoped TensorCore reference is among those the states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, nothing faulting, and every
    unscoped buffer ends at the last state's contents: the arguments as launched, each host result at its
    operations' term, each region's result array at what the region leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outsK m) c b) := by
  refine Pipeline.θ_run_regions_kit_dev (pcfgs (F := F)) adm (pdats m) () cellOf_inj emb₁ defs₀ Variants.none L0 lv0 m ρ main
    (segs m (outsK m) Variants.none L0 lv0 Est () (pdats m) (regA m) (regB m) (regC m))
    (fun c Q => by
      rewrite [main_chain c, Seg.run_eq_chain,
        show (segs m (outsK m) Variants.none L0 lv0 Est () (pdats m) (regA m) (regB m) (regC m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Est 0 c))
    (Tₙ := fun c => StableHlo.held (c : Thread nD τ) (Pipeline.ucRefs τ sig) (V8 m (outsK m) c))
    (hch := fun c => ⟨.rfl, .rfl, .rfl, .rfl, .rfl,
      Entails.of_eq (congrArg (fun W => iprop(StableHlo.held (c : Thread nD τ) (Pipeline.ucRefs τ sig) W ∗ Est 1 c)) (V5_outsK m c)), .rfl,
      Entails.of_eq (congrArg (fun W => iprop(StableHlo.held (c : Thread nD τ) (Pipeline.ucRefs τ sig) W ∗ Est 2 c)) (V7_outsK m c)),
      sep_mono .rfl (Rst_owes c)⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V8 m (outsK m) c b)
    (hfin := fun c s' => by
      iintro ⟨Hh, HSI⟩
      unfold StableHlo.held
      imodintro
      iapply (pointsTo_read_all (Pipeline.ucRefs τ sig) (fun b => (((c : Thread nD τ)).1, b)) (V8 m (outsK m) c) s')
      isplitl [Hh] <;> iassumption)
    (hQ := fun s h c => h c)

/-- The frame: every weakly fair execution terminates, nothing faulting, and every argument array ends as launched
    (no host stretch writes an argument and no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V8_main_arg0 m (outsK m) c),
     (h c _ (mem_uc main_arg1 (by decide))).trans (V8_main_arg1 m (outsK m) c),
     (h c _ (mem_uc main_arg2 (by decide))).trans (V8_main_arg2 m (outsK m) c),
     (h c _ (mem_uc main_arg3 (by decide))).trans (V8_main_arg3 m (outsK m) c),
     (h c _ (mem_uc main_arg4 (by decide))).trans (V8_main_arg4 m (outsK m) c),
     (h c _ (mem_uc main_arg5 (by decide))).trans (V8_main_arg5 m (outsK m) c),
     (h c _ (mem_uc main_arg6 (by decide))).trans (V8_main_arg6 m (outsK m) c),
     (h c _ (mem_uc main_arg7 (by decide))).trans (V8_main_arg7 m (outsK m) c),
     (h c _ (mem_uc main_arg8 (by decide))).trans (V8_main_arg8 m (outsK m) c),
     (h c _ (mem_uc main_arg9 (by decide))).trans (V8_main_arg9 m (outsK m) c)⟩) (run_all m ρ)

/-- The run with its results: the three result buffers end at the last state's contents, the arguments as launched. -/
theorem run_results : θ_run defs (onTc (τ := τ) (main (F := F))) ⟨m, fun _ => 0, ρ⟩ (fun r => ∀ c : Dev nD,
      r.2.mem ((c.tc : Thread nD τ).loc main_v103) = V8 m (outsK m) c main_v103
      ∧ r.2.mem ((c.tc : Thread nD τ).loc main_v86) = V8 m (outsK m) c main_v86
      ∧ r.2.mem ((c.tc : Thread nD τ).loc main_v102) = V8 m (outsK m) c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v103 (by decide)), h c _ (mem_uc main_v86 (by decide)), h c _ (mem_uc main_v102 (by decide)),
     (h c _ (mem_uc main_arg0 (by decide))).trans (V8_main_arg0 m (outsK m) c),
     (h c _ (mem_uc main_arg1 (by decide))).trans (V8_main_arg1 m (outsK m) c),
     (h c _ (mem_uc main_arg2 (by decide))).trans (V8_main_arg2 m (outsK m) c),
     (h c _ (mem_uc main_arg3 (by decide))).trans (V8_main_arg3 m (outsK m) c),
     (h c _ (mem_uc main_arg4 (by decide))).trans (V8_main_arg4 m (outsK m) c),
     (h c _ (mem_uc main_arg5 (by decide))).trans (V8_main_arg5 m (outsK m) c),
     (h c _ (mem_uc main_arg6 (by decide))).trans (V8_main_arg6 m (outsK m) c),
     (h c _ (mem_uc main_arg7 (by decide))).trans (V8_main_arg7 m (outsK m) c),
     (h c _ (mem_uc main_arg8 (by decide))).trans (V8_main_arg8 m (outsK m) c),
     (h c _ (mem_uc main_arg9 (by decide))).trans (V8_main_arg9 m (outsK m) c)⟩) (run_all m ρ)

end Cert.KernelIdeal.Hand

end
-- ==== Proof.KI.HostFns.lean ====
/- The host-side glue of the graph auto-encoder, as functions of the arrays it reads. Both programs compose the
   same operations: the edge list is extended by one self-loop per node; every node's degree is the number of
   extended edges that start at it, and an edge (r, c) carries the weight d(r)^(-1/2) d(c)^(-1/2) (zero where a
   degree is zero); an aggregation gathers the rows of h at the edges' end nodes, scales each by its edge's weight,
   adds them up at the edges' start nodes and adds the bias to every row. -/
import proofs.«101821_j76244259438916_1_alg».proof.KernelIdeal

noncomputable section

namespace Cert.KernelIdeal.Hand

open Cert.KernelIdeal
open Idealize.ShloMosaic

variable {F : FTy → Type} [FloatOps F]
variable [Cert.KernelIdeal.Facts]
open Cert.KernelIdeal.Facts₀ Cert.KernelIdeal.Facts

/-- The start nodes of the extended edge list: row 0 of the edge array, then the nodes 0 … 8191 (the self-loops). -/
def edgeRow (ei : (⟨S2x524288, .i32⟩ : BufTy).Contents (Elt F)) : (⟨S532480, .i32⟩ : BufTy).Contents (Elt F) :=
  concatenate S532480 0
    [⟨S524288, shapeCast S524288 (extractStridedSlice S1x524288 ![0, 0] ei slices_S2x524288_S1x524288_0_0) shapeCasts_S1x524288_S524288⟩,
     ⟨S8192, iotaInDim S8192 32 0⟩] concatenates_S524288_S8192_S532480_d0

/-- The end nodes of the extended edge list: row 1 of the edge array, then the nodes 0 … 8191. -/
def edgeCol (ei : (⟨S2x524288, .i32⟩ : BufTy).Contents (Elt F)) : (⟨S532480, .i32⟩ : BufTy).Contents (Elt F) :=
  concatenate S532480 0
    [⟨S524288, shapeCast S524288 (extractStridedSlice S1x524288 ![1, 0] ei slices_S2x524288_S1x524288_1_0) shapeCasts_S1x524288_S524288⟩,
     ⟨S8192, iotaInDim S8192 32 0⟩] concatenates_S524288_S8192_S532480_d0

/-- An index vector as a gather's start indices: a negative index counts from the end (8192 is added to it), and
    the vector becomes a column. -/
def wrapIx (ix : (⟨S532480, .i32⟩ : BufTy).Contents (Elt F)) : (⟨S532480x1, .i32⟩ : BufTy).Contents (Elt F) :=
  broadcastInDim S532480x1 ![0] bcast_S532480_S532480x1_0
    (select (cmpi .slt ix (broadcastInDim S532480 ![] bcast_S_S532480 (constantI S_ 32 0#32)))
      (addi ix (broadcastInDim S532480 ![] bcast_S_S532480 (constantI S_ 32 8192#32))) ix)

/-- Every node's degree: ones added up at the extended edges' start nodes. -/
def deg (ei : (⟨S2x524288, .i32⟩ : BufTy).Contents (Elt F)) : (⟨S8192, .f32⟩ : BufTy).Contents (Elt F) :=
  Host.scatterAdd scatter_S8192_S532480x1_S532480_n_0_0_1
    (broadcastInDim S8192 ![] bcast_S_S8192 (constant S_ .f32 0x00000000#32))
    (broadcastInDim S532480x1 ![0] bcast_S532480_S532480x1_0 (edgeRow ei))
    (broadcastInDim S532480 ![] bcast_S_S532480 (constant S_ .f32 0x3F800000#32))

/-- d^(-1/2) where the degree d is positive, zero elsewhere. -/
def dinv (ei : (⟨S2x524288, .i32⟩ : BufTy).Contents (Elt F)) : (⟨S8192, .f32⟩ : BufTy).Contents (Elt F) :=
  select (cmpf .ogt (deg ei) (broadcastInDim S8192 ![] bcast_S_S8192 (constant S_ .f32 0x00000000#32)))
    (Host.rsqrt (deg ei))
    (broadcastInDim S8192 ![] bcast_S_S8192 (id (constant S_ .f32 0x00000000#32)))

/-- The weight of every extended edge (r, c): dinv(r) dinv(c). -/
def edgeNorm (ei : (⟨S2x524288, .i32⟩ : BufTy).Contents (Elt F)) : (⟨S532480, .f32⟩ : BufTy).Contents (Elt F) :=
  mulf (Host.gather gather_S8192_S532480x1_S532480_n_0_n_n_0_1_1 (dinv ei) (wrapIx (edgeRow ei)))
    (Host.gather gather_S8192_S532480x1_S532480_n_0_n_n_0_1_1 (dinv ei) (wrapIx (edgeCol ei)))

/-- One aggregation of 128 features: row r of the result is the sum over the extended edges (r, c) of
    weight(r, c) h[c, :], plus the bias b. -/
def agg128 (ei : (⟨S2x524288, .i32⟩ : BufTy).Contents (Elt F)) (h : (⟨S8192x128, .f32⟩ : BufTy).Contents (Elt F))
    (b : (⟨S128, .f32⟩ : BufTy).Contents (Elt F)) : (⟨S8192x128, .f32⟩ : BufTy).Contents (Elt F) :=
  addf
    (Host.scatterAdd scatter_S8192x128_S532480x1_S532480x128_1_0_0_1
      (broadcastInDim S8192x128 ![] bcast_S_S8192x128 (constant S_ .f32 0x00000000#32))
      (broadcastInDim S532480x1 ![0] bcast_S532480_S532480x1_0 (edgeRow ei))
      (mulf (Host.gather gather_S8192x128_S532480x1_S532480x128_1_0_n_n_0_1_1128 h (wrapIx (edgeCol ei)))
        (broadcastInDim S532480x128 ![0, 1] bcast_S532480x1_S532480x128_0_1
          (broadcastInDim S532480x1 ![0] bcast_S532480_S532480x1_0 (edgeNorm ei)))))
    (broadcastInDim S8192x128 ![0, 1] bcast_S1x128_S8192x128_0_1 (broadcastInDim S1x128 ![1] bcast_S128_S1x128_1 b))

/-- One aggregation of 64 features, as `agg128`. -/
def agg64 (ei : (⟨S2x524288, .i32⟩ : BufTy).Contents (Elt F)) (h : (⟨S8192x64, .f32⟩ : BufTy).Contents (Elt F))
    (b : (⟨S64, .f32⟩ : BufTy).Contents (Elt F)) : (⟨S8192x64, .f32⟩ : BufTy).Contents (Elt F) :=
  addf
    (Host.scatterAdd scatter_S8192x64_S532480x1_S532480x64_1_0_0_1
      (broadcastInDim S8192x64 ![] bcast_S_S8192x64 (constant S_ .f32 0x00000000#32))
      (broadcastInDim S532480x1 ![0] bcast_S532480_S532480x1_0 (edgeRow ei))
      (mulf (Host.gather gather_S8192x64_S532480x1_S532480x64_1_0_n_n_0_1_164 h (wrapIx (edgeCol ei)))
        (broadcastInDim S532480x64 ![0, 1] bcast_S532480x1_S532480x64_0_1
          (broadcastInDim S532480x1 ![0] bcast_S532480_S532480x1_0 (edgeNorm ei)))))
    (broadcastInDim S8192x64 ![0, 1] bcast_S1x64_S8192x64_0_1 (broadcastInDim S1x64 ![1] bcast_S64_S1x64_1 b))

/-- The second layer's input: the two aggregations of the column halves of the first product, side by side. -/
def hcOf (ei : (⟨S2x524288, .i32⟩ : BufTy).Contents (Elt F)) (h12 : (⟨S8192x256, .f32⟩ : BufTy).Contents (Elt F))
    (b1 b2 : (⟨S128, .f32⟩ : BufTy).Contents (Elt F)) : (⟨S8192x256, .f32⟩ : BufTy).Contents (Elt F) :=
  concatenate S8192x256 1
    [⟨S8192x128, agg128 ei (extractStridedSlice S8192x128 ![0, 0] h12 slices_S8192x256_S8192x128_0_0) b1⟩,
     ⟨S8192x128, agg128 ei (extractStridedSlice S8192x128 ![0, 128] h12 slices_S8192x256_S8192x128_0_128) b2⟩]
    concatenates_S8192x128_S8192x128_S8192x256_d1

/-- The mean: the aggregation of the left column half of the second product. -/
def muOf (ei : (⟨S2x524288, .i32⟩ : BufTy).Contents (Elt F)) (h68 : (⟨S8192x128, .f32⟩ : BufTy).Contents (Elt F))
    (bmu : (⟨S64, .f32⟩ : BufTy).Contents (Elt F)) : (⟨S8192x64, .f32⟩ : BufTy).Contents (Elt F) :=
  agg64 ei (extractStridedSlice S8192x64 ![0, 0] h68 slices_S8192x128_S8192x64_0_0) bmu

/-- The log-variance: the aggregation of the right column half of the second product. -/
def lvOf (ei : (⟨S2x524288, .i32⟩ : BufTy).Contents (Elt F)) (h68 : (⟨S8192x128, .f32⟩ : BufTy).Contents (Elt F))
    (blv : (⟨S64, .f32⟩ : BufTy).Contents (Elt F)) : (⟨S8192x64, .f32⟩ : BufTy).Contents (Elt F) :=
  agg64 ei (extractStridedSlice S8192x64 ![0, 64] h68 slices_S8192x128_S8192x64_0_64) blv

end Cert.KernelIdeal.Hand

end
-- ==== Proof.KI.HostRead.lean ====
/- What the core's buffers hold between the program's items, at the references the three kernel regions read and
   the program returns: each host stretch's results are the shared host functions of the arrays the program was
   launched with and of what the regions left in their result arrays. A reference no item writes keeps its launch
   contents; a stretch's result is its operations' composite at the contents the stretch found. -/
import proofs.«101821_j76244259438916_1_alg».proof.Proof.KI.HostFns
import proofs.«101821_j76244259438916_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (outs : Outs (F := F)) (c : Dev nD)

/-! ## The launch contents of the arguments, and the first stretch -/

theorem V3_arg0 : V3 m c main_arg0 = m ((c : Thread nD τ).loc main_arg0) :=
  (V3_of m c main_arg0 (by decide)).trans <| (V2_of m c main_arg0 (by decide)).trans <| (V1_of m c main_arg0 (by decide)).trans rfl

theorem V1_v3 : V1 m c main_v3 = edgeRow (m ((c : Thread nD τ).loc main_arg1)) := by
  show StableHlo.after hostOps0 _ (Proc.devRef .tc main_v3) = _
  after_results_simp
  rfl

theorem V1_v6 : V1 m c main_v6 = edgeCol (m ((c : Thread nD τ).loc main_arg1)) := by
  show StableHlo.after hostOps0 _ (Proc.devRef .tc main_v6) = _
  after_results_simp
  rfl

theorem V1_v10 : V1 m c main_v10 = deg (m ((c : Thread nD τ).loc main_arg1)) := by
  show StableHlo.after hostOps0 _ (Proc.devRef .tc main_v10) = _
  after_results_simp
  rfl

theorem V1_v12 : V1 m c main_v12
    = cmpf .ogt (deg (m ((c : Thread nD τ).loc main_arg1))) (broadcastInDim S8192 ![] bcast_S_S8192 (constant S_ .f32 0x00000000#32)) := by
  show StableHlo.after hostOps0 _ (Proc.devRef .tc main_v12) = _
  after_results_simp
  rfl

theorem V1_v13 : V1 m c main_v13 = Host.rsqrt (deg (m ((c : Thread nD τ).loc main_arg1))) := by
  show StableHlo.after hostOps0 _ (Proc.devRef .tc main_v13) = _
  after_results_simp
  rfl

theorem V1_cst_2 : V1 m c main_cst_2 = constant S_ .f32 0x00000000#32 := by
  show StableHlo.after hostOps0 _ (Proc.devRef .tc main_cst_2) = _
  after_results_simp

/-! ## The call of the select-or-zero function -/

theorem V2_v14 : V2 m c main_v14 = dinv (m ((c : Thread nD τ).loc main_arg1)) := by
  have e12 := V1_v12 m c
  have e13 := V1_v13 m c
  have ecst := V1_cst_2 m c
  show StableHlo.after hostOps0_1 (V1 m c) (Proc.devRef .tc main_v14) = _
  generalize V1 m c = W at e12 e13 ecst ⊢
  after_results_simp
  rw [e12, e13, ecst]
  rfl

/-! ## The third stretch: the edges' weights and the first layer's weights side by side -/

theorem V2_v3 : V2 m c main_v3 = edgeRow (m ((c : Thread nD τ).loc main_arg1)) :=
  (V2_of m c main_v3 (by decide)).trans (V1_v3 m c)

theorem V2_v6 : V2 m c main_v6 = edgeCol (m ((c : Thread nD τ).loc main_arg1)) :=
  (V2_of m c main_v6 (by decide)).trans (V1_v6 m c)

theorem V3_v3 : V3 m c main_v3 = edgeRow (m ((c : Thread nD τ).loc main_arg1)) :=
  (V3_of m c main_v3 (by decide)).trans (V2_v3 m c)

theorem V3_v6 : V3 m c main_v6 = edgeCol (m ((c : Thread nD τ).loc main_arg1)) :=
  (V3_of m c main_v6 (by decide)).trans (V2_v6 m c)

theorem V3_v29 : V3 m c main_v29 = edgeNorm (m ((c : Thread nD τ).loc main_arg1)) := by
  have e3 := V2_v3 m c
  have e6 := V2_v6 m c
  have e14 := V2_v14 m c
  show StableHlo.after hostOps0_2 (V2 m c) (Proc.devRef .tc main_v29) = _
  generalize V2 m c = W at e3 e6 e14 ⊢
  after_results_simp
  rw [e3, e6, e14]
  rfl

theorem V2_arg (r : Ref sig .tc) (h0 : r ∉ hostOps0_W) (h1 : r ∉ hostOps0_1_W) :
    V2 m c r = m ((c : Thread nD τ).loc r) :=
  (V2_of m c r h1).trans <| (V1_of m c r h0).trans rfl

theorem V3_v30 : V3 m c main_v30
    = concatenate S256x256 1 [⟨S256x128, m ((c : Thread nD τ).loc main_arg2)⟩, ⟨S256x128, m ((c : Thread nD τ).loc main_arg4)⟩]
        concatenates_S256x128_S256x128_S256x256_d1 := by
  have e2 := V2_arg m c main_arg2 (by decide) (by decide)
  have e4 := V2_arg m c main_arg4 (by decide) (by decide)
  rw [← e2, ← e4]
  show StableHlo.after hostOps0_2 (V2 m c) (Proc.devRef .tc main_v30) = _
  generalize V2 m c = W
  rfl

/-! ## Region 0's result, and the fifth item: the first aggregation -/

theorem V4_v31 : V4 m outs c main_v31 = outs 4 main_v31 c := by
  simp only [V4, Function.update_self]

theorem V4_v3 : V4 m outs c main_v3 = edgeRow (m ((c : Thread nD τ).loc main_arg1)) :=
  (V4_of m outs c main_v3 (by decide)).trans (V3_v3 m c)

theorem V4_v6 : V4 m outs c main_v6 = edgeCol (m ((c : Thread nD τ).loc main_arg1)) :=
  (V4_of m outs c main_v6 (by decide)).trans (V3_v6 m c)

theorem V4_v29 : V4 m outs c main_v29 = edgeNorm (m ((c : Thread nD τ).loc main_arg1)) :=
  (V4_of m outs c main_v29 (by decide)).trans (V3_v29 m c)

theorem V4_arg (r : Ref sig .tc) (h0 : r ∉ hostOps0_W) (h1 : r ∉ hostOps0_1_W) (h2 : r ∉ hostOps0_2_W)
    (h3 : r ∉ ([main_v31] : List (Ref sig .tc))) : V4 m outs c r = m ((c : Thread nD τ).loc r) :=
  (V4_of m outs c r h3).trans <| (V3_of m c r h2).trans (V2_arg m c r h0 h1)

theorem V5_v49 : V5 m outs c main_v49
    = agg128 (m ((c : Thread nD τ).loc main_arg1))
        (extractStridedSlice S8192x128 ![0, 0] (outs 4 main_v31 c) slices_S8192x256_S8192x128_0_0)
        (m ((c : Thread nD τ).loc main_arg3)) := by
  have e31 := V4_v31 m outs c
  have e3 := V4_v3 m outs c
  have e6 := V4_v6 m outs c
  have e29 := V4_v29 m outs c
  have ea := V4_arg m outs c main_arg3 (by decide) (by decide) (by decide) (by decide)
  show StableHlo.after hostOps1 (V4 m outs c) (Proc.devRef .tc main_v49) = _
  generalize V4 m outs c = W at e31 e3 e6 e29 ea ⊢
  after_results_simp
  rw [e31, e3, e6, e29, ea]
  rfl

theorem V5_v65 : V5 m outs c main_v65
    = agg128 (m ((c : Thread nD τ).loc main_arg1))
        (extractStridedSlice S8192x128 ![0, 128] (outs 4 main_v31 c) slices_S8192x256_S8192x128_0_128)
        (m ((c : Thread nD τ).loc main_arg5)) := by
  have e31 := V4_v31 m outs c
  have e3 := V4_v3 m outs c
  have e6 := V4_v6 m outs c
  have e29 := V4_v29 m outs c
  have ea := V4_arg m outs c main_arg5 (by decide) (by decide) (by decide) (by decide)
  show StableHlo.after hostOps1 (V4 m outs c) (Proc.devRef .tc main_v65) = _
  generalize V4 m outs c = W at e31 e3 e6 e29 ea ⊢
  after_results_simp
  rw [e31, e3, e6, e29, ea]
  rfl

theorem V5_v66 : V5 m outs c main_v66
    = hcOf (m ((c : Thread nD τ).loc main_arg1)) (outs 4 main_v31 c) (m ((c : Thread nD τ).loc main_arg3))
        (m ((c : Thread nD τ).loc main_arg5)) := by
  have e49 := V5_v49 m outs c
  have e65 := V5_v65 m outs c
  change StableHlo.after hostOps1 (V4 m outs c) (Proc.devRef .tc main_v49) = _ at e49
  change StableHlo.after hostOps1 (V4 m outs c) (Proc.devRef .tc main_v65) = _ at e65
  show StableHlo.after hostOps1 (V4 m outs c) (Proc.devRef .tc main_v66) = _
  generalize V4 m outs c = W at e49 e65 ⊢
  simp only [StableHlo.after_cons, StableHlo.after_nil] at e49 e65
  rw [StableHlo.binary_result_ne] at e49; rotate_left; decide
  rw [StableHlo.binary_result_ne] at e49; rotate_left; decide
  rw [StableHlo.binary_result_ne] at e65; rotate_left; decide
  rw [StableHlo.binary_result_ne] at e65; rotate_left; decide
  after_results_simp
  rw [e49, e65]
  rfl

theorem V5_v67 : V5 m outs c main_v67
    = concatenate S256x128 1 [⟨S256x64, m ((c : Thread nD τ).loc main_arg6)⟩, ⟨S256x64, m ((c : Thread nD τ).loc main_arg8)⟩]
        concatenates_S256x64_S256x64_S256x128_d1 := by
  have e6 : V5 m outs c main_arg6 = m ((c : Thread nD τ).loc main_arg6) :=
    (V5_of m outs c main_arg6 (by decide)).trans (V4_arg m outs c main_arg6 (by decide) (by decide) (by decide) (by decide))
  have e8 : V5 m outs c main_arg8 = m ((c : Thread nD τ).loc main_arg8) :=
    (V5_of m outs c main_arg8 (by decide)).trans (V4_arg m outs c main_arg8 (by decide) (by decide) (by decide) (by decide))
  change StableHlo.after hostOps1 (V4 m outs c) (Proc.devRef .tc main_arg6) = _ at e6
  change StableHlo.after hostOps1 (V4 m outs c) (Proc.devRef .tc main_arg8) = _ at e8
  show StableHlo.after hostOps1 (V4 m outs c) (Proc.devRef .tc main_v67) = _
  generalize V4 m outs c = W at e6 e8 ⊢
  simp only [StableHlo.after_cons, StableHlo.after_nil] at e6 e8
  rw [StableHlo.binary_result_ne] at e6; rotate_left; decide
  rw [StableHlo.binary_result_ne] at e8; rotate_left; decide
  after_results_simp
  rw [e6, e8]

/-! ## Region 1's result, and the seventh item: the second aggregation -/

theorem V6_v68 : V6 m outs c main_v68 = outs 6 main_v68 c := by
  simp only [V6, Function.update_self]

theorem V6_v3 : V6 m outs c main_v3 = edgeRow (m ((c : Thread nD τ).loc main_arg1)) :=
  (V6_of m outs c main_v3 (by decide)).trans <| (V5_of m outs c main_v3 (by decide)).trans (V4_v3 m outs c)

theorem V6_v6 : V6 m outs c main_v6 = edgeCol (m ((c : Thread nD τ).loc main_arg1)) :=
  (V6_of m outs c main_v6 (by decide)).trans <| (V5_of m outs c main_v6 (by decide)).trans (V4_v6 m outs c)

theorem V6_v29 : V6 m outs c main_v29 = edgeNorm (m ((c : Thread nD τ).loc main_arg1)) :=
  (V6_of m outs c main_v29 (by decide)).trans <| (V5_of m outs c main_v29 (by decide)).trans (V4_v29 m outs c)

theorem V6_arg (r : Ref sig .tc) (h0 : r ∉ hostOps0_W) (h1 : r ∉ hostOps0_1_W) (h2 : r ∉ hostOps0_2_W)
    (h3 : r ∉ ([main_v31] : List (Ref sig .tc))) (h4 : r ∉ hostOps1_W) (h5 : r ∉ ([main_v68] : List (Ref sig .tc))) :
    V6 m outs c r = m ((c : Thread nD τ).loc r) :=
  (V6_of m outs c r h5).trans <| (V5_of m outs c r h4).trans (V4_arg m outs c r h0 h1 h2 h3)

theorem V7_v86 : V7 m outs c main_v86
    = muOf (m ((c : Thread nD τ).loc main_arg1)) (outs 6 main_v68 c) (m ((c : Thread nD τ).loc main_arg7)) := by
  have e68 := V6_v68 m outs c
  have e3 := V6_v3 m outs c
  have e6 := V6_v6 m outs c
  have e29 := V6_v29 m outs c
  have ea := V6_arg m outs c main_arg7 (by decide) (by decide) (by decide) (by decide) (by decide) (by decide)
  show StableHlo.after hostOps2 (V6 m outs c) (Proc.devRef .tc main_v86) = _
  generalize V6 m outs c = W at e68 e3 e6 e29 ea ⊢
  after_results_simp
  rw [e68, e3, e6, e29, ea]
  rfl

theorem V7_v102 : V7 m outs c main_v102
    = lvOf (m ((c : Thread nD τ).loc main_arg1)) (outs 6 main_v68 c) (m ((c : Thread nD τ).loc main_arg9)) := by
  have e68 := V6_v68 m outs c
  have e3 := V6_v3 m outs c
  have e6 := V6_v6 m outs c
  have e29 := V6_v29 m outs c
  have ea := V6_arg m outs c main_arg9 (by decide) (by decide) (by decide) (by decide) (by decide) (by decide)
  show StableHlo.after hostOps2 (V6 m outs c) (Proc.devRef .tc main_v102) = _
  generalize V6 m outs c = W at e68 e3 e6 e29 ea ⊢
  after_results_simp
  rw [e68, e3, e6, e29, ea]
  rfl

/-! ## Region 2's result: the three values the program returns -/

theorem V8_v86 : V8 m outs c main_v86
    = muOf (m ((c : Thread nD τ).loc main_arg1)) (outs 6 main_v68 c) (m ((c : Thread nD τ).loc main_arg7)) :=
  (V8_of m outs c main_v86 (by decide)).trans (V7_v86 m outs c)

theorem V8_v102 : V8 m outs c main_v102
    = lvOf (m ((c : Thread nD τ).loc main_arg1)) (outs 6 main_v68 c) (m ((c : Thread nD τ).loc main_arg9)) :=
  (V8_of m outs c main_v102 (by decide)).trans (V7_v102 m outs c)

theorem V8_v103 : V8 m outs c main_v103 = outs 8 main_v103 c := by
  simp only [V8, Function.update_self]

end Cert.KernelIdeal.Hand

end
-- ==== Proof.MatDefs.lean ====
/- The three dense products the kernel's pallas_calls compute, as whole-array functions on the extended reals:
   rows times columns summed over the shared axis, and for the decoder the logistic function of the inner
   products of the rows of one array with the rows of another. -/
import Idealize.ShloMosaic.PureOps.Ideal
import Idealize.ShloMosaic.Lib.ValueIdx

noncomputable section

open scoped BigOperators

namespace Cert.Spec

open Idealize.ShloMosaic Idealize.ShloMosaic.ValueIdx

/-- [8192,256] times [256,256]: entry (i, j) is the sum over l of x[i,l] w[l,j]. -/
def K0 (x : FVec Ideal ⟨2, ![8192, 256]⟩ .f32) (w : FVec Ideal ⟨2, ![256, 256]⟩ .f32) : FVec Ideal ⟨2, ![8192, 256]⟩ .f32 :=
  fun i => ∑ l : Fin 256, x (ix2 (n0 := 8192) (i 0) l) * w (ix2 (n1 := 256) l (i 1))

/-- [8192,256] times [256,128]: entry (i, j) is the sum over l of x[i,l] w[l,j]. -/
def K1 (x : FVec Ideal ⟨2, ![8192, 256]⟩ .f32) (w : FVec Ideal ⟨2, ![256, 128]⟩ .f32) : FVec Ideal ⟨2, ![8192, 128]⟩ .f32 :=
  fun i => ∑ l : Fin 256, x (ix2 (n0 := 8192) (i 0) l) * w (ix2 (n1 := 128) l (i 1))

/-- The decoder: entry (i, j) is the logistic function of the inner product of row i of a with row j of b. -/
def K2 (a b : FVec Ideal ⟨2, ![8192, 64]⟩ .f32) : FVec Ideal ⟨2, ![8192, 8192]⟩ .f32 :=
  fun i => Ideal.logistic (∑ l : Fin 64, a (ix2 (n0 := 8192) (i 0) l) * b (ix2 (n0 := 8192) (i 1) l))

end Cert.Spec

end
-- ==== Proof.KI.Value0.lean ====
/- Region 0: the value of the result array, on the extended reals. At grid point t the body stores, as block t of
   the result, the product of rows [1024 t, 1024 (t+1)) of the left operand with the whole right operand; the
   conversion of both operands to a narrower format is the identity on the extended reals and the accumulator starts
   at zero, so entry (p, q) of the stored block is the sum over l of x[1024 t + p, l] w[l, q]. That is entry
   (1024 t + p, q) of the whole product, the 8 row blocks tile the [8192, 256] result (row r lies in block r / 1024),
   and so the array ends holding the whole product x w of the two operand arrays as the region finds them. -/
import proofs.«101821_j76244259438916_1_alg».proof.Proof.KI.Region0
import proofs.«101821_j76244259438916_1_alg».proof.Proof.MatDefs
import Idealize.ShloMosaic.PureOps.Ideal.Laws
import Idealize.ShloMosaic.Lib.ValueIdx
import Idealize.ShloMosaic.Lib.StackMember
import Idealize.ShloMosaic.Lib.Pipeline.Value

noncomputable section
open scoped BigOperators

namespace Cert.KernelIdeal.Hand

open Cert.KernelIdeal Cert.KernelIdeal.Gen
open Idealize.ShloMosaic Idealize.ShloMosaic.TcCoe Idealize.SL.Sem
open Idealize.ShloMosaic.ValueIdx Idealize.ShloMosaic.StackMember
open Idealize.ShloMosaic.Pipeline (Dat)

/-- A product of an m×k by a k×n matrix accumulated into the zero array, read at an index: the sum over the shared
    coordinate of the products of the entries. -/
theorem matmul_plain_zero_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  subst hd
  refine (Ideal.matmul_constant_zero_apply _ prec A B (ix2 a b)).trans ?_
  refine (Ideal.dotGeneral_apply _ prec default A B (ix2 a b)).symm.trans ?_
  exact dotGeneral_plain_apply prec A B a b

/-- The body's arithmetic at entry (p, q): the sum over l of (left block)[p, l] (right operand)[l, q]. -/
theorem k0_pay1_apply (v0 : Vec Ideal S1024x256 .f32) (v2 : Vec Ideal S256x256 .f32) (p : Fin 1024) (q : Fin 256) :
    k0_pay1 v0 v2 (ix2 p q) = ∑ l : Fin 256, v0 (ix2 p l) * v2 (ix2 l q) := by
  unfold k0_pay1
  rw [shapeCast_self]
  exact matmul_plain_zero_apply _ rfl none _ _ p q

private theorem hz0 : (![0, 0] : Fin 2 → Nat) = fun _ => 0 := funext fun a => by fin_cases a <;> rfl

/-- The result window's staging buffer after the body, at entry (p, q): the same sum of the two staged blocks. -/
theorem out0_apply (x0 : Vec Ideal S1024x256 .f32) (x1 : Vec Ideal S256x256 .f32) (p : Fin 1024) (q : Fin 256) :
    out0 x0 x1 (ix2 p q) = ∑ l : Fin 256, x0 (ix2 p l) * x1 (ix2 l q) := by
  unfold out0
  rw [View.canon_unit_zero hz0]
  simp only [View.ld_unit_zero (S := S1024x256) hz0, View.ld_unit_zero (S := S256x256) hz0]
  exact k0_pay1_apply x0 x1 p q

/-- The block indices of the three windows at every grid point: the left operand and the result move down one row
    block per point, the right operand stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b)) (c : Dev nD)

/-- Entry (p, l) of the left operand's block at point t is entry (1024 t + p, l) of the left operand. -/
theorem iblk0_0_apply (t : Fin cfg0.N) (p : Fin 1024) (l : Fin 256) (r : Fin 8192) (hr : r.val = t.val * 1024 + p.val) :
    iblk0 V c 0 t (ix2 p l) = V c main_arg0 (ix2 r l) := by
  obtain ⟨e0, e1, e2, e3, e4, e5⟩ := idx_facts0 t
  show V c main_arg0 (((cfg0.win 0).blk t).view.emb (ix2 p l)) = V c main_arg0 (ix2 r l)
  refine congrArg _ ?_
  funext a; apply Fin.ext
  match a with
  | ⟨0, _⟩ => show win0_0.index t (0 : Fin 2) * 1024 + 1 * p.val = r.val; omega
  | ⟨1, _⟩ => show win0_0.index t (1 : Fin 2) * 256 + 1 * l.val = l.val; omega

/-- The right operand's block at any point is the whole right operand. -/
theorem iblk0_1_apply (t : Fin cfg0.N) (l : Fin 256) (q : Fin 256) :
    iblk0 V c 1 t (ix2 l q) = V c main_v30 (ix2 l q) := by
  obtain ⟨e0, e1, e2, e3, e4, e5⟩ := idx_facts0 t
  show V c main_v30 (((cfg0.win 1).blk t).view.emb (ix2 l q)) = V c main_v30 (ix2 l q)
  refine congrArg _ ?_
  funext a; apply Fin.ext
  match a with
  | ⟨0, _⟩ => show win0_1.index t (0 : Fin 2) * 256 + 1 * l.val = l.val; omega
  | ⟨1, _⟩ => show win0_1.index t (1 : Fin 2) * 256 + 1 * q.val = q.val; omega

/-- What point t writes back is block t of the whole product. -/
theorem flushed0_eq (t : Fin cfg0.N) :
    (dat0 (F := Ideal) V c).flushed 2 t = ((cfg0.win 2).blk t).view.read (Elt Ideal) (Cert.Spec.K0 (V c main_arg0) (V c main_v30)) := by
  show (cfg0.win 2).cut (grid0.coords t) ((dat0 V c).after 2 t) = _
  rw [after0_2]
  obtain ⟨e0, e1, e2, e3, e4, e5⟩ := idx_facts0 t
  funext j
  have hp : (j 0).val < 1024 := (j 0).isLt
  have hq : (j 1).val < 256 := (j 1).isLt
  have ht : t.val < 8 := t.isLt
  have ej : (cfg0.win 2).xinj (grid0.coords t) j = ix2 (⟨(j 0).val, hp⟩ : Fin 1024) (⟨(j 1).val, hq⟩ : Fin 256) := by
    funext a; match a with | ⟨0, _⟩ => rfl | ⟨1, _⟩ => rfl
  have ei : ((cfg0.win 2).blk t).view.emb j = ix2 (⟨t.val * 1024 + (j 0).val, by omega⟩ : Fin 8192) (⟨(j 1).val, hq⟩ : Fin 256) := by
    funext a; apply Fin.ext
    match a with
    | ⟨0, _⟩ => show win0_2.index t (0 : Fin 2) * 1024 + 1 * (j 0).val = t.val * 1024 + (j 0).val; omega
    | ⟨1, _⟩ => show win0_2.index t (1 : Fin 2) * 256 + 1 * (j 1).val = (j 1).val; omega
  show out0 (iblk0 V c 0 t) (iblk0 V c 1 t) ((cfg0.win 2).xinj (grid0.coords t) j)
    = Cert.Spec.K0 (V c main_arg0) (V c main_v30) (((cfg0.win 2).blk t).view.emb j)
  refine (congrArg _ ej).trans ?_
  refine Eq.trans ?_ (congrArg _ ei).symm
  refine (out0_apply _ _ _ _).trans ?_
  refine Finset.sum_congr rfl fun l _ => ?_
  exact congrArg₂ (· * ·) (iblk0_0_apply V c t _ l _ rfl) (iblk0_1_apply V c t l _)

/-- An index of the result array is in point t's block iff each coordinate is in the block's range on its axis. -/
theorem mem_blk0 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v31).slice (win0_2.rect t)).set ↔ _
  rw [View.set_slice_whole, Rect.mem_set_unit]
  exact Iff.rfl

/-- Every index of the result array is in some point's block: row r lies in block r / 1024. -/
theorem covered0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  let t : Fin cfg0.N := ⟨(i 0).val / 1024, by show _ < 8; omega⟩
  obtain ⟨e0, e1, e2, e3, e4, e5⟩ := idx_facts0 t
  have tv : t.val = (i 0).val / 1024 := rfl
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- The result array after the region: the whole product of the two operand arrays as the region finds them. -/
theorem final0 : (dat0 (F := Ideal) V c).arrAt 2 cfg0.N = Cert.Spec.K0 (V c main_arg0) (V c main_v30) :=
  (dat0 (F := Ideal) V c).arrAt_eq_of_cover 2 _ (fun t _ => flushed0_eq V c t) (covered0)

end Cert.KernelIdeal.Hand

end
-- ==== Proof.KI.Value1.lean ====
/- Region 1's result array as one function of its two operands: the value of the body's arithmetic at an index of a
   block (a row of the loaded block of the first operand times a column of the second operand, summed over the 256
   shared positions), and from the blocks to the array: point t reads rows [1024 t, 1024 (t+1)) of the first operand
   and the whole second operand and writes rows [1024 t, 1024 (t+1)) of the result, the 8 blocks tile the 8192 by 128
   result, so the result is the product of the two arrays. -/
import proofs.«101821_j76244259438916_1_alg».proof.Proof.KI.Region1
import proofs.«101821_j76244259438916_1_alg».proof.Proof.MatDefs
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The body's arithmetic at an index -/

/-- The left operand of the product is read at the output's row, -/
theorem lhs_lin1_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
/-- and at the summation index on its second axis; -/
theorem lhs_lin1_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
/-- the right operand at the summation index on its first axis, -/
theorem rhs_lin1_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
/-- and at the output's column on its second. -/
theorem rhs_lin1_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The body's arithmetic at entry (p, q) of its block: row p of the first loaded block times column q of the
    second, summed over the 256 shared positions. (The narrowing to sixteen bits is the identity on the extended
    reals, the casts are to the same shape, and the product accumulates into zero.) -/
theorem k1_pay1_apply (v0 : Vec Ideal S1024x256 .f32) (v3 : Vec Ideal S256x128 .f32) (p : Fin 1024) (q : Fin 128) :
    k1_pay1 v0 v3 (ix2 p q) = ∑ l : Fin 256, v0 (ix2 p l) * v3 (ix2 l q) := by
  unfold k1_pay1
  show FloatOps.matmul dot_S1024x256_S256x128_S1024x128_1_0_0_1_n_n none
      (truncf .bf16 (shapeCast S1024x256 v0 shapeCasts_S1024x256_S1024x256) bitsLt_bf16_f32)
      (truncf .bf16 (shapeCast S256x128 v3 shapeCasts_S256x128_S256x128) bitsLt_bf16_f32)
      (constant (F := Ideal) S1024x128 .f32 0x00000000#32) (ix2 p q) = _
  rw [shapeCast_self, shapeCast_self]
  rw [Ideal.matmul_constant_zero_apply, ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 p q) ((contrEquiv1 dot_S1024x256_S256x128_S1024x128_1_0_0_1_n_n 256 rfl rfl).symm k) = ix2 p k := funext fun a => Fin.ext (by
    match a with
    | ⟨0, _⟩ => exact lhs_lin1_0 _ _
    | ⟨1, _⟩ => exact (lhs_lin1_1 _ _).trans hk)
  have er : dot_S1024x256_S256x128_S1024x128_1_0_0_1_n_n.rhsIdx (ix2 p q) ((contrEquiv1 dot_S1024x256_S256x128_S1024x128_1_0_0_1_n_n 256 rfl rfl).symm k) = ix2 k q := funext fun a => Fin.ext (by
    match a with
    | ⟨0, _⟩ => exact (rhs_lin1_0 _ _).trans hk
    | ⟨1, _⟩ => exact rhs_lin1_1 _ _)
  rw [truncf_apply, truncf_apply, el, er]

/-! ## From the blocks to the array -/

/-- A function on a block is determined by its values at the pairs of coordinates. -/
theorem funext_ix2_1 {α : Type} {n0 n1 : Nat} (X Y : (⟨2, ![n0, n1]⟩ : Shape).Idx → α)
    (h : ∀ (p : Fin n0) (q : Fin n1), X (ix2 p q) = Y (ix2 p q)) : X = Y :=
  funext fun j => by rw [eq_ix2 j]; exact h _ _

/-- One entry of a block against one entry of the whole product: when row p of the loaded block of the first operand
    is row (i 0) of the first array and column q of the loaded second operand is column (i 1) of the second array,
    the body's value at (p, q) is the product's at i. -/
theorem lin1_point (A : FVec Ideal ⟨2, ![8192, 256]⟩ .f32) (W : FVec Ideal ⟨2, ![256, 128]⟩ .f32)
    (x0 : Vec Ideal S1024x256 .f32) (x1 : Vec Ideal S256x128 .f32)
    (p : Fin 1024) (q : Fin 128) (i : (⟨2, ![8192, 128]⟩ : Shape).Idx)
    (h0 : ∀ l : Fin 256, x0 (ix2 p l) = A (ix2 (n0 := 8192) (i 0) l))
    (h1 : ∀ l : Fin 256, x1 (ix2 l q) = W (ix2 (n1 := 128) l (i 1))) :
    k1_pay1 x0 x1 (ix2 p q) = Cert.Spec.K1 A W i := by
  rw [k1_pay1_apply]
  show _ = ∑ l : Fin 256, A (ix2 (n0 := 8192) (i 0) l) * W (ix2 (n1 := 128) l (i 1))
  exact Finset.sum_congr rfl fun l _ => by rw [h0 l, h1 l]

variable (V : (c : Dev nD) → (b : Ref sig .tc) → Buf (Elt Ideal) ((c : Thread nD τ).loc b)) (c : Dev nD)

theorem offsets_zero1 : (![0, 0] : Fin 2 → Nat) = fun _ => 0 := funext fun a => by fin_cases a <;> rfl

/-- The printed index maps, decided over the 8 points: the first operand's block row is the result's block row,
    neither is split along its columns, and the second operand is one block. -/
theorem lin1_index_maps : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every one of the 8 row blocks of the result is some point's. -/
theorem lin1_blocks_onto : ∀ (a : Fin 8), ∃ t : Fin cfg1.N, win1_2.index t = ![a.val, 0] :=
  (by decide +kernel : ∀ (a : Fin 8), ∃ t : Fin grid1.N, win1_2.index t = ![a.val, 0])

/-- What point t writes back is block t of the product of the two arrays. -/
theorem lin1_flushed (t : Fin cfg1.N) :
    (dat1 (F := Ideal) V c).flushed 2 t
      = ((cfg1.win 2).blk t).view.read (Elt Ideal) (Cert.Spec.K1 (V c main_v66) (V c main_v67)) := by
  show (cfg1.win 2).cut (grid1.coords t) ((dat1 (F := Ideal) V c).after 2 t) = _
  rw [after1_2]
  unfold out1
  rw [View.canon_unit_zero offsets_zero1]
  simp only [View.ld_unit_zero (S := S1024x256) offsets_zero1, View.ld_unit_zero (S := S256x128) offsets_zero1]
  obtain ⟨e0, e1, e2, e3, e4⟩ := lin1_index_maps t
  refine funext_ix2_1 (n0 := 1024) (n1 := 128) _ _ fun p q => ?_
  show k1_pay1 (iblk1 V c 0 t) (iblk1 V c 1 t) (ix2 p q)
    = Cert.Spec.K1 (V c main_v66) (V c main_v67) (((cfg1.win 2).blk t).view.emb (ix2 p q))
  refine lin1_point (V c main_v66) (V c main_v67) _ _ p q _ (fun l => ?_) (fun l => ?_)
  · show V c main_v66 (((cfg1.win 0).blk t).view.emb (ix2 p l)) = V c main_v66 _
    refine congrArg (V c main_v66) (funext fun a => Fin.ext ?_)
    match a with
    | ⟨0, _⟩ => show win1_0.index t (0 : Fin 2) * 1024 + 1 * p.val = win1_2.index t (0 : Fin 2) * 1024 + 1 * p.val; omega
    | ⟨1, _⟩ => show win1_0.index t (1 : Fin 2) * 256 + 1 * l.val = l.val; omega
  · show V c main_v67 (((cfg1.win 1).blk t).view.emb (ix2 l q)) = V c main_v67 _
    refine congrArg (V c main_v67) (funext fun a => Fin.ext ?_)
    match a with
    | ⟨0, _⟩ => show win1_1.index t (0 : Fin 2) * 256 + 1 * l.val = l.val; omega
    | ⟨1, _⟩ => show win1_1.index t (1 : Fin 2) * 128 + 1 * q.val = win1_2.index t (1 : Fin 2) * 128 + 1 * q.val; omega

/-- An index of the result is in point t's block iff each coordinate is in the block's range on its axis. -/
theorem mem_lin1_block (t : Fin cfg1.N) (i : S8192x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v68).slice (win1_2.rect t)).set ↔ _
  rw [View.set_slice_whole, Rect.mem_set_unit]
  exact Iff.rfl

/-- The blocks tile the result: row r is in the block of block row r / 1024. -/
theorem lin1_covered (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  obtain ⟨t, ht⟩ := lin1_blocks_onto ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_lin1_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-- The result array after the region: the product of the two arrays. -/
theorem final1 : (dat1 (F := Ideal) V c).arrAt 2 cfg1.N = Cert.Spec.K1 (V c main_v66) (V c main_v67) :=
  (dat1 (F := Ideal) V c).arrAt_eq_of_cover 2 (Cert.Spec.K1 (V c main_v66) (V c main_v67))
    (fun t _ => lin1_flushed V c t) lin1_covered

end Cert.KernelIdeal.Hand

end
-- ==== Proof.KI.Value2.lean ====
/- Region 2's result array as one function of the embedding: the value of the body's arithmetic at an index of a
   block (the logistic function of the inner product of a row of the first block with a row of the second), and
   from the blocks to the array: the point of grid coordinates (i, j) reads rows [1024 i, 1024 (i+1)) and
   [1024 j, 1024 (j+1)) of the one embedding array and writes block (i, j) of the result, the 64 blocks tile the
   8192 by 8192 result, so the result is the logistic function of the inner products of the embedding's rows. -/
import proofs.«101821_j76244259438916_1_alg».proof.Proof.KI.Region2
import proofs.«101821_j76244259438916_1_alg».proof.Proof.MatDefs
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The body's arithmetic at an index -/

/-- The left operand of the product is read at the output's row, -/
theorem lhs_decode_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- and at the summation index on its second axis; -/
theorem lhs_decode_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
/-- the right operand at the output's column on its FIRST axis (it is contracted on its second), -/
theorem rhs_decode_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- and at the summation index on its second. -/
theorem rhs_decode_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The body's arithmetic at entry (p, q) of its block: the logistic function of the inner product of row p of the
    first loaded block with row q of the second. (The narrowing to sixteen bits is the identity on the extended
    reals, the casts are to the same shape, and the product accumulates into zero.) -/
theorem k2_pay1_apply (v0 : Vec Ideal S1024x64 .f32) (v3 : Vec Ideal S1024x64 .f32) (p : Fin 1024) (q : Fin 1024) :
    k2_pay1 v0 v3 (ix2 p q) = Ideal.logistic (∑ l : Fin 64, v0 (ix2 p l) * v3 (ix2 q l)) := by
  unfold k2_pay1
  show FloatOps.logistic (FloatOps.matmul dot_S1024x64_S1024x64_S1024x1024_1_1_0_0_n_n none
      (truncf .bf16 (shapeCast S1024x64 v0 shapeCasts_S1024x64_S1024x64) bitsLt_bf16_f32)
      (truncf .bf16 (shapeCast S1024x64 v3 shapeCasts_S1024x64_S1024x64) bitsLt_bf16_f32)
      (constant (F := Ideal) S1024x1024 .f32 0x00000000#32) (ix2 p q)) = _
  rw [Ideal.logistic_def, shapeCast_self, shapeCast_self]
  refine congrArg Ideal.logistic ?_
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact lhs_decode_0 _ _
    | ⟨1, _⟩ => exact (lhs_decode_1 _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact rhs_decode_0 _ _
    | ⟨1, _⟩ => exact (rhs_decode_1 _ _).trans hk)
  rw [truncf_apply, truncf_apply, el, er]

/-! ## From the blocks to the array -/

/-- A function on a block is determined by its values at the pairs of coordinates. -/
theorem funext_ix2 {α : Type} {n0 n1 : Nat} (X Y : (⟨2, ![n0, n1]⟩ : Shape).Idx → α)
    (h : ∀ (p : Fin n0) (q : Fin n1), X (ix2 p q) = Y (ix2 p q)) : X = Y :=
  funext fun j => by rw [eq_ix2 j]; exact h _ _

/-- One entry of a block against one entry of the whole table: when row p of the first block is row (i 0) of the
    array and row q of the second is row (i 1), the body's value at (p, q) is the table's at i. -/
theorem decode_point (A : FVec Ideal ⟨2, ![8192, 64]⟩ .f32) (x0 x1 : Vec Ideal S1024x64 .f32)
    (p q : Fin 1024) (i : (⟨2, ![8192, 8192]⟩ : Shape).Idx)
    (h0 : ∀ l : Fin 64, x0 (ix2 p l) = A (ix2 (n0 := 8192) (i 0) l))
    (h1 : ∀ l : Fin 64, x1 (ix2 q l) = A (ix2 (n0 := 8192) (i 1) l)) :
    k2_pay1 x0 x1 (ix2 p q) = Cert.Spec.K2 A A i := by
  rw [k2_pay1_apply]
  show _ = Ideal.logistic (∑ l : Fin 64, A (ix2 (n0 := 8192) (i 0) l) * A (ix2 (n0 := 8192) (i 1) l))
  exact congrArg Ideal.logistic (Finset.sum_congr rfl fun l _ => by rw [h0 l, h1 l])

variable (V : (c : Dev nD) → (b : Ref sig .tc) → Buf (Elt Ideal) ((c : Thread nD τ).loc b)) (c : Dev nD)

theorem offsets_zero : (![0, 0] : Fin 2 → Nat) = fun _ => 0 := funext fun a => by fin_cases a <;> rfl

/-- The printed index maps, decided over the 64 points: the first operand's block row is the result's block row,
    the second operand's block row is the result's block column, and neither operand is split along its columns. -/
theorem decode_index_maps : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0 :=
  (by decide +kernel : ∀ t : Fin grid2.N, _)

/-- Every one of the 8 by 8 blocks of the result is some point's. -/
theorem decode_blocks_onto : ∀ (a b : Fin 8), ∃ t : Fin cfg2.N, win2_2.index t = ![a.val, b.val] :=
  (by decide +kernel : ∀ (a b : Fin 8), ∃ t : Fin grid2.N, win2_2.index t = ![a.val, b.val])

/-- What point t writes back is block t of the table of the logistic function of the inner products of the
    embedding's rows. -/
theorem decode_flushed (t : Fin cfg2.N) :
    (dat2 (F := Ideal) V c).flushed 2 t
      = ((cfg2.win 2).blk t).view.read (Elt Ideal) (Cert.Spec.K2 (V c main_v86) (V c main_v86)) := by
  show (cfg2.win 2).cut (grid2.coords t) ((dat2 (F := Ideal) V c).after 2 t) = _
  rw [after2_2]
  unfold out2
  rw [View.canon_unit_zero offsets_zero]
  simp only [View.ld_unit_zero (S := S1024x64) offsets_zero]
  obtain ⟨e0, e1, e2, e3⟩ := decode_index_maps t
  refine funext_ix2 (n0 := 1024) (n1 := 1024) _ _ fun p q => ?_
  show k2_pay1 (iblk2 V c 0 t) (iblk2 V c 1 t) (ix2 p q)
    = Cert.Spec.K2 (V c main_v86) (V c main_v86) (((cfg2.win 2).blk t).view.emb (ix2 p q))
  refine decode_point (V c main_v86) _ _ p q _ (fun l => ?_) (fun l => ?_)
  · show V c main_v86 (((cfg2.win 0).blk t).view.emb (ix2 p l)) = V c main_v86 _
    refine congrArg (V c main_v86) (funext fun a => Fin.ext ?_)
    match a with
    | ⟨0, _⟩ => show win2_0.index t (0 : Fin 2) * 1024 + 1 * p.val = win2_2.index t (0 : Fin 2) * 1024 + 1 * p.val; omega
    | ⟨1, _⟩ => show win2_0.index t (1 : Fin 2) * 64 + 1 * l.val = l.val; omega
  · show V c main_v86 (((cfg2.win 1).blk t).view.emb (ix2 q l)) = V c main_v86 _
    refine congrArg (V c main_v86) (funext fun a => Fin.ext ?_)
    match a with
    | ⟨0, _⟩ => show win2_1.index t (0 : Fin 2) * 1024 + 1 * q.val = win2_2.index t (1 : Fin 2) * 1024 + 1 * q.val; omega
    | ⟨1, _⟩ => show win2_1.index t (1 : Fin 2) * 64 + 1 * l.val = l.val; omega

/-- An index of the result is in point t's block iff each coordinate is in the block's range on its axis. -/
theorem mem_decode_block (t : Fin cfg2.N) (i : S8192x8192.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v103).slice (win2_2.rect t)).set ↔ _
  rw [View.set_slice_whole, Rect.mem_set_unit]
  exact Iff.rfl

/-- The blocks tile the result: entry (r, s) is in the block of block row r / 1024 and block column s / 1024. -/
theorem decode_covered (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := decode_blocks_onto ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_decode_block]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The result array after the region: the logistic function of the inner products of the rows of the embedding. -/
theorem final2 : (dat2 (F := Ideal) V c).arrAt 2 cfg2.N = Cert.Spec.K2 (V c main_v86) (V c main_v86) :=
  (dat2 (F := Ideal) V c).arrAt_eq_of_cover 2 (Cert.Spec.K2 (V c main_v86) (V c main_v86))
    (fun t _ => decode_flushed V c t) decode_covered

end Cert.KernelIdeal.Hand

end
-- ==== Proof.MatLaws.lean ====
/- The three dense products read through the host operations the two programs apply around them:
   a column slice of x times the column concatenation [w1 | w2] is x times w1 (left half) or x times w2 (right half),
   and the logistic function of the inner products of the rows of z is 1 / (1 + exp (-(z zᵀ))). -/
import proofs.«101821_j76244259438916_1_alg».proof.KernelIdeal
import proofs.«101821_j76244259438916_1_alg».proof.ReferenceIdeal
import proofs.«101821_j76244259438916_1_alg».proof.Proof.MatDefs
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember
import Idealize.ShloMosaic.Lib.IdealHost

noncomputable section

open scoped BigOperators

namespace Cert.Spec

open Idealize.ShloMosaic Idealize.ShloMosaic.ValueIdx Idealize.ShloMosaic.StackMember

variable [Cert.KernelIdeal.Facts] [Cert.ReferenceIdeal.Facts]

/-! ## The column concatenation of two matrices, read in its left and in its right half -/

/-- Column j < n of [a | b] is column j of a. -/
theorem concat_cols_left {m n : Nat} {α : Type} (a b : (⟨2, ![m, n]⟩ : Shape).Idx → α)
    (h : Shape.Concatenates [(⟨2, ![m, n]⟩ : Shape), ⟨2, ![m, n]⟩] ⟨2, ![m, n + n]⟩ 1)
    (l : Fin m) (j : Fin n) (k : Fin (n + n)) (hk : k.val = j.val) :
    concatenate ⟨2, ![m, n + n]⟩ 1 [⟨⟨2, ![m, n]⟩, a⟩, ⟨⟨2, ![m, n]⟩, b⟩] h (ix2 l k) = a (ix2 l j) :=
  concatenate_pair_apply_left 1 a b h (ix2 l k) rfl (ix2 l j) fun c => by
    match c with
    | ⟨0, _⟩ => rfl
    | ⟨1, _⟩ => exact hk.symm

/-- Column n + j of [a | b] is column j of b. -/
theorem concat_cols_right {m n : Nat} {α : Type} (a b : (⟨2, ![m, n]⟩ : Shape).Idx → α)
    (h : Shape.Concatenates [(⟨2, ![m, n]⟩ : Shape), ⟨2, ![m, n]⟩] ⟨2, ![m, n + n]⟩ 1)
    (l : Fin m) (j : Fin n) (k : Fin (n + n)) (hk : k.val = n + j.val) :
    concatenate ⟨2, ![m, n + n]⟩ 1 [⟨⟨2, ![m, n]⟩, a⟩, ⟨⟨2, ![m, n]⟩, b⟩] h (ix2 l k) = b (ix2 l j) :=
  concatenate_pair_apply_right 1 a b h (ix2 l k) rfl rfl (ix2 l j)
    (fun c hc => by
      match c with
      | ⟨0, _⟩ => rfl
      | ⟨1, _⟩ => exact absurd rfl hc)
    (by show j.val + n = k.val; omega)

/-! ## The encoder's first layer: x [w1 | w2], cut into its two column halves -/

/-- Columns 0 … 127 of x [w1 | w2] are x w1. -/
theorem K0_slice_left (x : FVec Ideal Cert.KernelIdeal.S8192x256 .f32) (w1 w2 : FVec Ideal Cert.KernelIdeal.S256x128 .f32) :
    extractStridedSlice Cert.KernelIdeal.S8192x128 ![0, 0] (K0 x (concatenate Cert.KernelIdeal.S256x256 1 [⟨Cert.KernelIdeal.S256x128, w1⟩, ⟨Cert.KernelIdeal.S256x128, w2⟩] Cert.KernelIdeal.Facts₀.concatenates_S256x128_S256x128_S256x256_d1)) Cert.KernelIdeal.Facts₀.slices_S8192x256_S8192x128_0_0
      = Host.dotGeneral (F := Ideal) Cert.ReferenceIdeal.dot_S8192x256_S256x128_S8192x128_1_0_0_1_n_n none x w1 := by
  funext j
  obtain ⟨p, q, rfl⟩ : ∃ (p : Fin 8192) (q : Fin 128), j = ix2 p q := ⟨j 0, j 1, eq_ix2 j⟩
  have h0 := slice2_axis1_apply (n0 := 8192) (n1 := 256) (m := 128) 0 (K0 x (concatenate Cert.KernelIdeal.S256x256 1 [⟨Cert.KernelIdeal.S256x128, w1⟩, ⟨Cert.KernelIdeal.S256x128, w2⟩] Cert.KernelIdeal.Facts₀.concatenates_S256x128_S256x128_S256x256_d1)) Cert.KernelIdeal.Facts₀.slices_S8192x256_S8192x128_0_0 p q ⟨q.val, by omega⟩ (Nat.zero_add _).symm
  refine h0.trans ?_
  refine Eq.trans ?_ (dotGeneral_plain_apply none x w1 p q).symm
  refine Finset.sum_congr rfl fun l _ => ?_
  exact congrArg (x (ix2 p l) * ·) (concat_cols_left (n := 128) w1 w2 _ l q _ rfl)

/-- Columns 128 … 255 of x [w1 | w2] are x w2. -/
theorem K0_slice_right (x : FVec Ideal Cert.KernelIdeal.S8192x256 .f32) (w1 w2 : FVec Ideal Cert.KernelIdeal.S256x128 .f32) :
    extractStridedSlice Cert.KernelIdeal.S8192x128 ![0, 128] (K0 x (concatenate Cert.KernelIdeal.S256x256 1 [⟨Cert.KernelIdeal.S256x128, w1⟩, ⟨Cert.KernelIdeal.S256x128, w2⟩] Cert.KernelIdeal.Facts₀.concatenates_S256x128_S256x128_S256x256_d1)) Cert.KernelIdeal.Facts₀.slices_S8192x256_S8192x128_0_128
      = Host.dotGeneral (F := Ideal) Cert.ReferenceIdeal.dot_S8192x256_S256x128_S8192x128_1_0_0_1_n_n none x w2 := by
  funext j
  obtain ⟨p, q, rfl⟩ : ∃ (p : Fin 8192) (q : Fin 128), j = ix2 p q := ⟨j 0, j 1, eq_ix2 j⟩
  have h0 := slice2_axis1_apply (n0 := 8192) (n1 := 256) (m := 128) 128 (K0 x (concatenate Cert.KernelIdeal.S256x256 1 [⟨Cert.KernelIdeal.S256x128, w1⟩, ⟨Cert.KernelIdeal.S256x128, w2⟩] Cert.KernelIdeal.Facts₀.concatenates_S256x128_S256x128_S256x256_d1)) Cert.KernelIdeal.Facts₀.slices_S8192x256_S8192x128_0_128 p q ⟨128 + q.val, by omega⟩ rfl
  refine h0.trans ?_
  refine Eq.trans ?_ (dotGeneral_plain_apply none x w2 p q).symm
  refine Finset.sum_congr rfl fun l _ => ?_
  exact congrArg (x (ix2 p l) * ·) (concat_cols_right (n := 128) w1 w2 _ l q _ rfl)

/-! ## The encoder's second layer: hc [wmu | wlv], cut into its two column halves -/

/-- Columns 0 … 63 of hc [wmu | wlv] are hc wmu. -/
theorem K1_slice_left (hc : FVec Ideal Cert.KernelIdeal.S8192x256 .f32) (wmu wlv : FVec Ideal Cert.KernelIdeal.S256x64 .f32) :
    extractStridedSlice Cert.KernelIdeal.S8192x64 ![0, 0] (K1 hc (concatenate Cert.KernelIdeal.S256x128 1 [⟨Cert.KernelIdeal.S256x64, wmu⟩, ⟨Cert.KernelIdeal.S256x64, wlv⟩] Cert.KernelIdeal.Facts₀.concatenates_S256x64_S256x64_S256x128_d1)) Cert.KernelIdeal.Facts₀.slices_S8192x128_S8192x64_0_0
      = Host.dotGeneral (F := Ideal) Cert.ReferenceIdeal.dot_S8192x256_S256x64_S8192x64_1_0_0_1_n_n none hc wmu := by
  funext j
  obtain ⟨p, q, rfl⟩ : ∃ (p : Fin 8192) (q : Fin 64), j = ix2 p q := ⟨j 0, j 1, eq_ix2 j⟩
  have h0 := slice2_axis1_apply (n0 := 8192) (n1 := 128) (m := 64) 0 (K1 hc (concatenate Cert.KernelIdeal.S256x128 1 [⟨Cert.KernelIdeal.S256x64, wmu⟩, ⟨Cert.KernelIdeal.S256x64, wlv⟩] Cert.KernelIdeal.Facts₀.concatenates_S256x64_S256x64_S256x128_d1)) Cert.KernelIdeal.Facts₀.slices_S8192x128_S8192x64_0_0 p q ⟨q.val, by omega⟩ (Nat.zero_add _).symm
  refine h0.trans ?_
  refine Eq.trans ?_ (dotGeneral_plain_apply none hc wmu p q).symm
  refine Finset.sum_congr rfl fun l _ => ?_
  exact congrArg (hc (ix2 p l) * ·) (concat_cols_left (n := 64) wmu wlv _ l q _ rfl)

/-- Columns 64 … 127 of hc [wmu | wlv] are hc wlv. -/
theorem K1_slice_right (hc : FVec Ideal Cert.KernelIdeal.S8192x256 .f32) (wmu wlv : FVec Ideal Cert.KernelIdeal.S256x64 .f32) :
    extractStridedSlice Cert.KernelIdeal.S8192x64 ![0, 64] (K1 hc (concatenate Cert.KernelIdeal.S256x128 1 [⟨Cert.KernelIdeal.S256x64, wmu⟩, ⟨Cert.KernelIdeal.S256x64, wlv⟩] Cert.KernelIdeal.Facts₀.concatenates_S256x64_S256x64_S256x128_d1)) Cert.KernelIdeal.Facts₀.slices_S8192x128_S8192x64_0_64
      = Host.dotGeneral (F := Ideal) Cert.ReferenceIdeal.dot_S8192x256_S256x64_S8192x64_1_0_0_1_n_n none hc wlv := by
  funext j
  obtain ⟨p, q, rfl⟩ : ∃ (p : Fin 8192) (q : Fin 64), j = ix2 p q := ⟨j 0, j 1, eq_ix2 j⟩
  have h0 := slice2_axis1_apply (n0 := 8192) (n1 := 128) (m := 64) 64 (K1 hc (concatenate Cert.KernelIdeal.S256x128 1 [⟨Cert.KernelIdeal.S256x64, wmu⟩, ⟨Cert.KernelIdeal.S256x64, wlv⟩] Cert.KernelIdeal.Facts₀.concatenates_S256x64_S256x64_S256x128_d1)) Cert.KernelIdeal.Facts₀.slices_S8192x128_S8192x64_0_64 p q ⟨64 + q.val, by omega⟩ rfl
  refine h0.trans ?_
  refine Eq.trans ?_ (dotGeneral_plain_apply none hc wlv p q).symm
  refine Finset.sum_congr rfl fun l _ => ?_
  exact congrArg (hc (ix2 p l) * ·) (concat_cols_right (n := 64) wmu wlv _ l q _ rfl)

/-! ## The decoder: the logistic function of z zᵀ -/

/-- The scalar one, spread over the whole array, reads one at every index. -/
theorem ones_apply (j : Cert.ReferenceIdeal.S8192x8192.Idx) : (broadcastInDim Cert.ReferenceIdeal.S8192x8192 ![] Cert.ReferenceIdeal.Facts₀.bcast_S_S8192x8192 (constant (F := Ideal) Cert.ReferenceIdeal.S_ .f32 0x3F800000#32)) j = (1 : EReal) := by
  refine (broadcastInDim_apply _ Cert.ReferenceIdeal.Facts₀.bcast_S_S8192x8192 _ j ix0 fun a => a.elim0).trans ?_
  exact Ideal.ofBits_one_f32

/-- Entry (p, q) of z zᵀ is the inner product of rows p and q of z. -/
theorem gram_apply (z : FVec Ideal Cert.KernelIdeal.S8192x64 .f32) (p q : Fin 8192) :
    (Host.dotGeneral Cert.ReferenceIdeal.dot_S8192x64_S64x8192_S8192x8192_1_0_0_1_n_n none z (transpose Cert.ReferenceIdeal.S64x8192 [1, 0] z Cert.ReferenceIdeal.Facts₀.transposes_S8192x64_S64x8192_1_0)) (ix2 p q) = ∑ l : Fin 64, z (ix2 p l) * z (ix2 q l) := by
  refine (dotGeneral_plain_apply none z _ p q).trans ?_
  refine Finset.sum_congr rfl fun l _ => ?_
  exact congrArg (z (ix2 p l) * ·) (transpose_ix2_apply z Cert.ReferenceIdeal.Facts₀.transposes_S8192x64_S64x8192_1_0 l q)

/-- The logistic function of the inner products of the rows of z is 1 / (1 + exp (-(z zᵀ))), entry by entry. -/
theorem K2_self (z : FVec Ideal Cert.KernelIdeal.S8192x64 .f32) :
    K2 z z = Host.divf (F := Ideal) (broadcastInDim Cert.ReferenceIdeal.S8192x8192 ![] Cert.ReferenceIdeal.Facts₀.bcast_S_S8192x8192 (constant (F := Ideal) Cert.ReferenceIdeal.S_ .f32 0x3F800000#32)) (addf (broadcastInDim Cert.ReferenceIdeal.S8192x8192 ![] Cert.ReferenceIdeal.Facts₀.bcast_S_S8192x8192 (constant (F := Ideal) Cert.ReferenceIdeal.S_ .f32 0x3F800000#32)) (Host.exp (Host.negf (Host.dotGeneral Cert.ReferenceIdeal.dot_S8192x64_S64x8192_S8192x8192_1_0_0_1_n_n none z (transpose Cert.ReferenceIdeal.S64x8192 [1, 0] z Cert.ReferenceIdeal.Facts₀.transposes_S8192x64_S64x8192_1_0))))) := by
  funext j
  obtain ⟨p, q, rfl⟩ : ∃ (p : Fin 8192) (q : Fin 8192), j = ix2 p q := ⟨j 0, j 1, eq_ix2 j⟩
  show Ideal.logistic (∑ l : Fin 64, z (ix2 p l) * z (ix2 q l))
    = FloatOps.hostDivf ((broadcastInDim Cert.ReferenceIdeal.S8192x8192 ![] Cert.ReferenceIdeal.Facts₀.bcast_S_S8192x8192 (constant (F := Ideal) Cert.ReferenceIdeal.S_ .f32 0x3F800000#32)) (ix2 p q)) (FloatOps.addf ((broadcastInDim Cert.ReferenceIdeal.S8192x8192 ![] Cert.ReferenceIdeal.Facts₀.bcast_S_S8192x8192 (constant (F := Ideal) Cert.ReferenceIdeal.S_ .f32 0x3F800000#32)) (ix2 p q)) (FloatOps.hostUnary .exp (FloatOps.hostNegf ((Host.dotGeneral Cert.ReferenceIdeal.dot_S8192x64_S64x8192_S8192x8192_1_0_0_1_n_n none z (transpose Cert.ReferenceIdeal.S64x8192 [1, 0] z Cert.ReferenceIdeal.Facts₀.transposes_S8192x64_S64x8192_1_0)) (ix2 p q)))))
  rw [ones_apply, gram_apply]
  rfl

end Cert.Spec

end
-- ==== Proof.Bridge.lean ====
/- The kernel's host glue applied to its three dense products is the reference's host glue applied to the
   reference's products: the column halves of x [W1 | W2] are x W1 and x W2, those of hc [Wmu | Wlv] are hc Wmu and
   hc Wlv, and the aggregations around them are the same functions on both sides. -/
import proofs.«101821_j76244259438916_1_alg».proof.Proof.MatLaws
import proofs.«101821_j76244259438916_1_alg».proof.Proof.KI.HostFns

noncomputable section

namespace Cert.Spec

open Idealize.ShloMosaic Idealize.ShloMosaic.ValueIdx

variable [Cert.KernelIdeal.Facts] [Cert.ReferenceIdeal.Facts]

/-- The second layer's input as the reference computes it: the aggregations of x W1 and of x W2, side by side. -/
def hcRefOf (a0 : FVec Ideal Cert.KernelIdeal.S8192x256 .f32) (a1 : (⟨Cert.KernelIdeal.S2x524288, .i32⟩ : BufTy).Contents (Elt Ideal)) (a2 : FVec Ideal Cert.KernelIdeal.S256x128 .f32) (a3 : FVec Ideal Cert.KernelIdeal.S128 .f32) (a4 : FVec Ideal Cert.KernelIdeal.S256x128 .f32) (a5 : FVec Ideal Cert.KernelIdeal.S128 .f32) : FVec Ideal Cert.KernelIdeal.S8192x256 .f32 :=
  concatenate Cert.KernelIdeal.S8192x256 1
    [⟨Cert.KernelIdeal.S8192x128, Cert.KernelIdeal.Hand.agg128 a1 (Host.dotGeneral (F := Ideal) Cert.ReferenceIdeal.dot_S8192x256_S256x128_S8192x128_1_0_0_1_n_n none a0 a2) a3⟩,
     ⟨Cert.KernelIdeal.S8192x128, Cert.KernelIdeal.Hand.agg128 a1 (Host.dotGeneral (F := Ideal) Cert.ReferenceIdeal.dot_S8192x256_S256x128_S8192x128_1_0_0_1_n_n none a0 a4) a5⟩]
    Cert.KernelIdeal.Facts₀.concatenates_S8192x128_S8192x128_S8192x256_d1

/-- The kernel's second-layer input, built from the one product x [W1 | W2], is the reference's. -/
theorem hc_bridge (a0 : FVec Ideal Cert.KernelIdeal.S8192x256 .f32) (a1 : (⟨Cert.KernelIdeal.S2x524288, .i32⟩ : BufTy).Contents (Elt Ideal)) (a2 : FVec Ideal Cert.KernelIdeal.S256x128 .f32) (a3 : FVec Ideal Cert.KernelIdeal.S128 .f32) (a4 : FVec Ideal Cert.KernelIdeal.S256x128 .f32) (a5 : FVec Ideal Cert.KernelIdeal.S128 .f32) :
    Cert.KernelIdeal.Hand.hcOf a1 (K0 a0 (concatenate Cert.KernelIdeal.S256x256 1 [⟨Cert.KernelIdeal.S256x128, a2⟩, ⟨Cert.KernelIdeal.S256x128, a4⟩] Cert.KernelIdeal.Facts₀.concatenates_S256x128_S256x128_S256x256_d1)) a3 a5 = hcRefOf a0 a1 a2 a3 a4 a5 := by
  unfold Cert.KernelIdeal.Hand.hcOf hcRefOf
  rw [K0_slice_left, K0_slice_right]

/-- The kernel's mean, built from the one product hc [Wmu | Wlv], is the aggregation of hc Wmu. -/
theorem mu_bridge (a0 : FVec Ideal Cert.KernelIdeal.S8192x256 .f32) (a1 : (⟨Cert.KernelIdeal.S2x524288, .i32⟩ : BufTy).Contents (Elt Ideal)) (a2 : FVec Ideal Cert.KernelIdeal.S256x128 .f32) (a3 : FVec Ideal Cert.KernelIdeal.S128 .f32) (a4 : FVec Ideal Cert.KernelIdeal.S256x128 .f32) (a5 : FVec Ideal Cert.KernelIdeal.S128 .f32) (a6 a8 : FVec Ideal Cert.KernelIdeal.S256x64 .f32) (a7 : FVec Ideal Cert.KernelIdeal.S64 .f32) :
    Cert.KernelIdeal.Hand.muOf a1 (K1 (hcRefOf a0 a1 a2 a3 a4 a5) (concatenate Cert.KernelIdeal.S256x128 1 [⟨Cert.KernelIdeal.S256x64, a6⟩, ⟨Cert.KernelIdeal.S256x64, a8⟩] Cert.KernelIdeal.Facts₀.concatenates_S256x64_S256x64_S256x128_d1)) a7
      = Cert.KernelIdeal.Hand.agg64 a1 (Host.dotGeneral (F := Ideal) Cert.ReferenceIdeal.dot_S8192x256_S256x64_S8192x64_1_0_0_1_n_n none (hcRefOf a0 a1 a2 a3 a4 a5) a6) a7 := by
  unfold Cert.KernelIdeal.Hand.muOf
  rw [K1_slice_left]

/-- The kernel's log-variance, built from the same product, is the aggregation of hc Wlv. -/
theorem lv_bridge (a0 : FVec Ideal Cert.KernelIdeal.S8192x256 .f32) (a1 : (⟨Cert.KernelIdeal.S2x524288, .i32⟩ : BufTy).Contents (Elt Ideal)) (a2 : FVec Ideal Cert.KernelIdeal.S256x128 .f32) (a3 : FVec Ideal Cert.KernelIdeal.S128 .f32) (a4 : FVec Ideal Cert.KernelIdeal.S256x128 .f32) (a5 : FVec Ideal Cert.KernelIdeal.S128 .f32) (a6 a8 : FVec Ideal Cert.KernelIdeal.S256x64 .f32) (a9 : FVec Ideal Cert.KernelIdeal.S64 .f32) :
    Cert.KernelIdeal.Hand.lvOf a1 (K1 (hcRefOf a0 a1 a2 a3 a4 a5) (concatenate Cert.KernelIdeal.S256x128 1 [⟨Cert.KernelIdeal.S256x64, a6⟩, ⟨Cert.KernelIdeal.S256x64, a8⟩] Cert.KernelIdeal.Facts₀.concatenates_S256x64_S256x64_S256x128_d1)) a9
      = Cert.KernelIdeal.Hand.agg64 a1 (Host.dotGeneral (F := Ideal) Cert.ReferenceIdeal.dot_S8192x256_S256x64_S8192x64_1_0_0_1_n_n none (hcRefOf a0 a1 a2 a3 a4 a5) a8) a9 := by
  unfold Cert.KernelIdeal.Hand.lvOf
  rw [K1_slice_right]

end Cert.Spec

end
-- ==== Proof.KI.Results.lean ====
/- The kernel program's three results as functions of its arguments. What each region leaves is the dense product
   of what it is entered with; what it is entered with is the host glue applied to what the earlier regions left;
   so the mean and the log-variance are the aggregations of the column halves of hc [Wmu | Wlv], where hc is the
   aggregation of the column halves of x [W1 | W2], and the decoded adjacency is the logistic function of the inner
   products of the mean's rows. Read through the laws of the products, these are the reference's own expressions. -/
import proofs.«101821_j76244259438916_1_alg».proof.Proof.KI.Stages
import proofs.«101821_j76244259438916_1_alg».proof.Proof.KI.HostRead
import proofs.«101821_j76244259438916_1_alg».proof.Proof.KI.Value0
import proofs.«101821_j76244259438916_1_alg».proof.Proof.KI.Value1
import proofs.«101821_j76244259438916_1_alg».proof.Proof.KI.Value2
import proofs.«101821_j76244259438916_1_alg».proof.Proof.Bridge

set_option maxRecDepth 16384

noncomputable section

namespace Cert.KernelIdeal.Hand

open Cert.KernelIdeal Cert.KernelIdeal.Gen
open Idealize.ShloMosaic Idealize.ShloMosaic.TcCoe

variable [Cert.ReferenceIdeal.Facts]
variable (m : (ℓ : Loc nD τ sig) → Buf (Elt Ideal) ℓ) (c : Dev nD)

/-! ## The regions' result arrays as functions of the arguments -/

/-- The second layer's input as the kernel builds it from its arguments: the aggregations of the two column halves
    of the one product x [W1 | W2], side by side. -/
def hcK : FVec Ideal S8192x256 .f32 :=
  hcOf (m ((c : Thread nD τ).loc main_arg1)) (Cert.Spec.K0 (m ((c : Thread nD τ).loc main_arg0)) (concatenate S256x256 1 [⟨S256x128, (m ((c : Thread nD τ).loc main_arg2))⟩, ⟨S256x128, (m ((c : Thread nD τ).loc main_arg4))⟩] Facts₀.concatenates_S256x128_S256x128_S256x256_d1)) (m ((c : Thread nD τ).loc main_arg3)) (m ((c : Thread nD τ).loc main_arg5))

/-- Region 0 leaves the product of the features with the two first-layer weight matrices side by side. -/
theorem o4_eq : o4 m c = Cert.Spec.K0 (m ((c : Thread nD τ).loc main_arg0)) (concatenate S256x256 1 [⟨S256x128, (m ((c : Thread nD τ).loc main_arg2))⟩, ⟨S256x128, (m ((c : Thread nD τ).loc main_arg4))⟩] Facts₀.concatenates_S256x128_S256x128_S256x256_d1) := by
  unfold o4
  refine (final0 (E0 m) c).trans ?_
  show Cert.Spec.K0 (V3 m c main_arg0) (V3 m c main_v30) = _
  rw [V3_arg0, V3_v30]

/-- Region 1 is entered with the second layer's input in its first operand … -/
theorem E1_v66 : V5 m (outs1 m) c main_v66 = hcK m c := by
  refine (V5_v66 m (outs1 m) c).trans ?_
  rw [outs1_v31, o4_eq]
  rfl

/-- … and leaves its product with the two second-layer weight matrices side by side. -/
theorem o6_eq : o6 m c = Cert.Spec.K1 (hcK m c) (concatenate S256x128 1 [⟨S256x64, (m ((c : Thread nD τ).loc main_arg6))⟩, ⟨S256x64, (m ((c : Thread nD τ).loc main_arg8))⟩] Facts₀.concatenates_S256x64_S256x64_S256x128_d1) := by
  unfold o6
  refine (final1 (E1 m) c).trans ?_
  show Cert.Spec.K1 (V5 m (outs1 m) c main_v66) (V5 m (outs1 m) c main_v67) = _
  rw [E1_v66, V5_v67]

/-! ## The program's three results -/

/-- The mean, as the kernel computes it. -/
theorem res_mu : V8 m (outsK m) c main_v86 = muOf (m ((c : Thread nD τ).loc main_arg1)) (Cert.Spec.K1 (hcK m c) (concatenate S256x128 1 [⟨S256x64, (m ((c : Thread nD τ).loc main_arg6))⟩, ⟨S256x64, (m ((c : Thread nD τ).loc main_arg8))⟩] Facts₀.concatenates_S256x64_S256x64_S256x128_d1)) (m ((c : Thread nD τ).loc main_arg7)) := by
  refine (V8_v86 m (outsK m) c).trans ?_
  rw [outsK_v68, o6_eq]

/-- The log-variance, as the kernel computes it. -/
theorem res_lv : V8 m (outsK m) c main_v102 = lvOf (m ((c : Thread nD τ).loc main_arg1)) (Cert.Spec.K1 (hcK m c) (concatenate S256x128 1 [⟨S256x64, (m ((c : Thread nD τ).loc main_arg6))⟩, ⟨S256x64, (m ((c : Thread nD τ).loc main_arg8))⟩] Facts₀.concatenates_S256x64_S256x64_S256x128_d1)) (m ((c : Thread nD τ).loc main_arg9)) := by
  refine (V8_v102 m (outsK m) c).trans ?_
  rw [outsK_v68, o6_eq]

/-- Region 2 is entered with the mean in both of its operands; no later stage changes it. -/
theorem V8_v86_V7 : V8 m (outsK m) c main_v86 = V7 m (outs2 m) c main_v86 :=
  (V8_of m (outsK m) c main_v86 (by decide)).trans (congrFun (V7_outsK m c) main_v86)

/-- The decoded adjacency: the logistic function of the inner products of the mean's rows. -/
theorem res_adj : V8 m (outsK m) c main_v103 = Cert.Spec.K2 (V8 m (outsK m) c main_v86) (V8 m (outsK m) c main_v86) := by
  refine (V8_v103 m (outsK m) c).trans ?_
  rw [outsK_v103, V8_v86_V7]
  unfold o8
  exact final2 (E2 m) c

/-! ## The same results in the reference's operations -/

/-- The mean is the aggregation of the second-layer input times Wmu. -/
theorem res_mu' : V8 m (outsK m) c main_v86
    = agg64 (m ((c : Thread nD τ).loc main_arg1)) (Host.dotGeneral (F := Ideal) (φ₁ := .f32) (φ₂ := .f32) Cert.ReferenceIdeal.dot_S8192x256_S256x64_S8192x64_1_0_0_1_n_n none (Cert.Spec.hcRefOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)) := by
  rw [res_mu]
  unfold hcK
  rw [Cert.Spec.hc_bridge, Cert.Spec.mu_bridge]

/-- The log-variance is the aggregation of the second-layer input times Wlv. -/
theorem res_lv' : V8 m (outsK m) c main_v102
    = agg64 (m ((c : Thread nD τ).loc main_arg1)) (Host.dotGeneral (F := Ideal) (φ₁ := .f32) (φ₂ := .f32) Cert.ReferenceIdeal.dot_S8192x256_S256x64_S8192x64_1_0_0_1_n_n none (Cert.Spec.hcRefOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8))) (m ((c : Thread nD τ).loc main_arg9)) := by
  rw [res_lv]
  unfold hcK
  rw [Cert.Spec.hc_bridge, Cert.Spec.lv_bridge]

/-- The decoded adjacency is 1 / (1 + exp (-(mu muᵀ))). -/
theorem res_adj' : V8 m (outsK m) c main_v103
    = Host.divf (F := Ideal) (broadcastInDim Cert.ReferenceIdeal.S8192x8192 ![] Cert.ReferenceIdeal.Facts₀.bcast_S_S8192x8192 (constant (F := Ideal) Cert.ReferenceIdeal.S_ .f32 0x3F800000#32))
        (addf (broadcastInDim Cert.ReferenceIdeal.S8192x8192 ![] Cert.ReferenceIdeal.Facts₀.bcast_S_S8192x8192 (constant (F := Ideal) Cert.ReferenceIdeal.S_ .f32 0x3F800000#32))
          (Host.exp (Host.negf (Host.dotGeneral (F := Ideal) (φ₁ := .f32) (φ₂ := .f32) Cert.ReferenceIdeal.dot_S8192x64_S64x8192_S8192x8192_1_0_0_1_n_n none (V8 m (outsK m) c main_v86)
            (transpose (s := S8192x64) (α := Ideal .f32) Cert.ReferenceIdeal.S64x8192 [1, 0] (V8 m (outsK m) c main_v86) Cert.ReferenceIdeal.Facts₀.transposes_S8192x64_S64x8192_1_0))))) := by
  rw [res_adj]
  exact Cert.Spec.K2_self _

end Cert.KernelIdeal.Hand

end
-- ==== Proof.RefIs.lean ====
/- The reference's three results, read off its run: each is the host-side aggregation (gather the rows at the
   edges' end nodes, scale by the edge weights, add up at the start nodes, add the bias) applied to a whole-array
   matrix product, and the decoder's result is 1 / (1 + exp(-(mu mu^T))). The hidden layer hc is the two
   128-column aggregations of x W1 and x W2 side by side; mu and logvar aggregate hc Wmu and hc Wlv. Both sides
   of every equation compose the same operations in the same order, so each holds by unfolding, at any float
   family. -/
import proofs.«101821_j76244259438916_1_alg».proof.Proof.RefRunP
import proofs.«101821_j76244259438916_1_alg».proof.Proof.KI.HostFns

noncomputable section

namespace Cert.Spec

open Idealize.ShloMosaic Idealize.SL.Sem

variable {F : FTy → Type} [FloatOps F]
variable [Cert.KernelIdeal.Facts] [Cert.ReferenceIdeal.Facts]
variable (m' : (ℓ : Loc Cert.ReferenceIdeal.nD Cert.ReferenceIdeal.τ Cert.ReferenceIdeal.sig) → Buf (Elt F) ℓ)
  (c : Dev Cert.ReferenceIdeal.nD)

/- The contents of the reference's argument buffer b on device c's TensorCore thread. -/
set_option quotPrecheck false in
local notation "arg[" b "]" => m' ((c.tc : Thread Cert.ReferenceIdeal.nD Cert.ReferenceIdeal.τ).loc b)

/-- The hidden layer of the reference: the aggregations of x W1 (bias b1) and x W2 (bias b2), side by side. -/
def hcRef : FVec F Cert.KernelIdeal.S8192x256 .f32 :=
  concatenate Cert.KernelIdeal.S8192x256 1
    [⟨Cert.KernelIdeal.S8192x128,
        Cert.KernelIdeal.Hand.agg128 (F := F) (arg[Cert.ReferenceIdeal.main_arg1])
          (Host.dotGeneral (F := F) Cert.ReferenceIdeal.dot_S8192x256_S256x128_S8192x128_1_0_0_1_n_n none
            (arg[Cert.ReferenceIdeal.main_arg0]) (arg[Cert.ReferenceIdeal.main_arg2]))
          (arg[Cert.ReferenceIdeal.main_arg3])⟩,
     ⟨Cert.KernelIdeal.S8192x128,
        Cert.KernelIdeal.Hand.agg128 (F := F) (arg[Cert.ReferenceIdeal.main_arg1])
          (Host.dotGeneral (F := F) Cert.ReferenceIdeal.dot_S8192x256_S256x128_S8192x128_1_0_0_1_n_n none
            (arg[Cert.ReferenceIdeal.main_arg0]) (arg[Cert.ReferenceIdeal.main_arg4]))
          (arg[Cert.ReferenceIdeal.main_arg5])⟩]
    Cert.KernelIdeal.Facts₀.concatenates_S8192x128_S8192x128_S8192x256_d1

set_option maxRecDepth 8192 in
/-- The reference's mu is the 64-column aggregation of hc Wmu with bias bmu. -/
theorem ref_mu : Cert.ReferenceIdeal.ValueP.res_out1 m' c
    = Cert.KernelIdeal.Hand.agg64 (F := F) (arg[Cert.ReferenceIdeal.main_arg1])
        (Host.dotGeneral (F := F) Cert.ReferenceIdeal.dot_S8192x256_S256x64_S8192x64_1_0_0_1_n_n none
          (hcRef m' c) (arg[Cert.ReferenceIdeal.main_arg6]))
        (arg[Cert.ReferenceIdeal.main_arg7]) := by
  show Cert.ReferenceIdeal.ValueP.res_main_v81 m' c = _
  unfold Cert.ReferenceIdeal.ValueP.res_main_v81
  rfl

set_option maxRecDepth 8192 in
/-- The reference's logvar is the 64-column aggregation of hc Wlv with bias blv. -/
theorem ref_lv : Cert.ReferenceIdeal.ValueP.res_out2 m' c
    = Cert.KernelIdeal.Hand.agg64 (F := F) (arg[Cert.ReferenceIdeal.main_arg1])
        (Host.dotGeneral (F := F) Cert.ReferenceIdeal.dot_S8192x256_S256x64_S8192x64_1_0_0_1_n_n none
          (hcRef m' c) (arg[Cert.ReferenceIdeal.main_arg8]))
        (arg[Cert.ReferenceIdeal.main_arg9]) := by
  show Cert.ReferenceIdeal.ValueP.res_main_v98 m' c = _
  unfold Cert.ReferenceIdeal.ValueP.res_main_v98
  rfl

set_option maxRecDepth 8192 in
/-- The reference's adjacency is 1 / (1 + exp(-(mu mu^T))), entry by entry, mu being its second result. -/
theorem ref_adj : Cert.ReferenceIdeal.ValueP.res_out0 m' c
    = Host.divf
        (broadcastInDim Cert.ReferenceIdeal.S8192x8192 ![] Cert.ReferenceIdeal.Facts₀.bcast_S_S8192x8192
          (constant (F := F) Cert.ReferenceIdeal.S_ .f32 0x3F800000#32))
        (addf
          (broadcastInDim Cert.ReferenceIdeal.S8192x8192 ![] Cert.ReferenceIdeal.Facts₀.bcast_S_S8192x8192
            (constant (F := F) Cert.ReferenceIdeal.S_ .f32 0x3F800000#32))
          (Host.exp (Host.negf
            (Host.dotGeneral (F := F) Cert.ReferenceIdeal.dot_S8192x64_S64x8192_S8192x8192_1_0_0_1_n_n none
              (Cert.ReferenceIdeal.ValueP.res_out1 m' c)
              (transpose Cert.ReferenceIdeal.S64x8192 [1, 0] (Cert.ReferenceIdeal.ValueP.res_out1 m' c)
                Cert.ReferenceIdeal.Facts₀.transposes_S8192x64_S64x8192_1_0))))) := by
  show Cert.ReferenceIdeal.ValueP.res_main_v106 m' c = _
  unfold Cert.ReferenceIdeal.ValueP.res_main_v106
  rfl

end Cert.Spec

end
-- ==== Proof.Final.lean ====
/- The two idealized programs' results are equal. From memories agreeing on the ten arguments: the reference's mu
   is the aggregation of hc Wmu, hc being the aggregations of x W1 and x W2 side by side; the kernel's mu is the
   aggregation of the first 64 columns of hc [Wmu | Wlv], hc being the aggregations of the two column halves of
   x [W1 | W2]. A column half of a product by two matrices side by side is the product by that matrix, so the two
   are one term; logvar likewise with the other halves; and the decoder's block-wise logistic of the inner
   products of mu's rows is 1 / (1 + exp(-(mu mu^T))) entry by entry. -/
import proofs.«101821_j76244259438916_1_alg».proof.Proof.KI.Results
import proofs.«101821_j76244259438916_1_alg».proof.Proof.RefIs

noncomputable section

namespace Cert.Spec

open Idealize.ShloMosaic Idealize.ShloMosaic.TcCoe Idealize.SL.Sem
open Cert.KernelIdeal.Gen Cert.KernelIdeal.Hand

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's mu is the kernel's. -/
theorem mu_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_out1 m' c = V8 m (outsK m) c Cert.KernelIdeal.main_v86 := by
  refine ((ref_mu (F := Ideal) m' c).trans ?_).trans (res_mu' m c).symm
  unfold hcRef hcRefOf
  rw [h0, h1, h2, h3, h4, h5, h6, h7]

/-- The reference's logvar is the kernel's. -/
theorem lv_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_out2 m' c = V8 m (outsK m) c Cert.KernelIdeal.main_v102 := by
  refine ((ref_lv (F := Ideal) m' c).trans ?_).trans (res_lv' m c).symm
  unfold hcRef hcRefOf
  rw [h0, h1, h2, h3, h4, h5, h8, h9]

/-- The reference's adjacency is the kernel's. -/
theorem adj_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_out0 m' c = V8 m (outsK m) c Cert.KernelIdeal.main_v103 := by
  refine ((ref_adj (F := Ideal) m' c).trans ?_).trans (res_adj' m c).symm
  rw [mu_eq m m' c h0 h1 h2 h3 h4 h5 h6 h7 h8 h9]

end Cert.Spec

end
-- ==== Proof.lean ====
/- A two-layer graph convolutional auto-encoder: two dense projections computed by tiled kernels, with the
   degree-normalised gather / scatter-add aggregation between them on the host, and an inner-product decoder,
   against the plain array program that multiplies by each weight matrix separately. The kernel multiplies by two
   weight matrices side by side and slices the product's column halves; row blocks of a product are products of
   row blocks; the decoder's 1024 by 1024 blocks of logistic(mu mu^T) tile the whole table. On the extended reals
   each entry is the same finite sum on both sides, so no finiteness of the inputs is used.

   Each program's frame: the word-level kernel and its idealization run as three pipelined kernel regions among
   host stretches, every region's body obligation discharged by running the body once on arbitrary whole staging
   buffers; the reference is host operations only. -/
import proofs.«101821_j76244259438916_1_alg».proof.Defs
import proofs.«101821_j76244259438916_1_alg».proof.Proof.Gen.Kernel
import proofs.«101821_j76244259438916_1_alg».proof.Proof.Gen.KernelIdeal
import proofs.«101821_j76244259438916_1_alg».proof.Proof.Gen.ReferenceIdeal
import proofs.«101821_j76244259438916_1_alg».proof.Proof.Gen.Pre_finite_inputs
import proofs.«101821_j76244259438916_1_alg».proof.Proof.K.Run
import proofs.«101821_j76244259438916_1_alg».proof.Proof.KI.Run
import proofs.«101821_j76244259438916_1_alg».proof.Proof.RefRunP
import proofs.«101821_j76244259438916_1_alg».proof.Proof.Final
import Idealize.ShloMosaic.Adequacy
import Idealize.ShloMosaic.Init

noncomputable section

namespace Cert.Proof

open Idealize.ShloMosaic Idealize.ShloMosaic.TcCoe Idealize.SL.Sem

/-- The word-level kernel runs to the end, nothing faulting, its arguments unchanged. -/
theorem frame_k [Cert.Kernel.Facts] [Cert.Pre_finite_inputs.Facts] : Cert.frame_Kernel :=
  fun m ρ _ => Cert.Kernel.Hand.frame (F := Bits) m ρ

/-- So does its idealization. -/
theorem frame_ki [Cert.KernelIdeal.Facts] [Cert.Pre_finite_inputs.Facts] : Cert.frame_KernelIdeal :=
  fun m ρ _ => Cert.KernelIdeal.Hand.frame (F := Ideal) m ρ

/-- The reference is host operations only: its run, with the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.ValueP.run (F := Ideal) m ρ)

/-- From memories agreeing on the arguments both idealized programs run, with equal results. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.V8 m (Cert.KernelIdeal.Hand.outsK m) c Cert.KernelIdeal.main_v103,
    fun c => Cert.KernelIdeal.Gen.V8 m (Cert.KernelIdeal.Hand.outsK m) c Cert.KernelIdeal.main_v86,
    fun c => Cert.KernelIdeal.Gen.V8 m (Cert.KernelIdeal.Hand.outsK m) c Cert.KernelIdeal.main_v102,
    Cert.KernelIdeal.Hand.run_results (F := Ideal) m ρ, ?_⟩
  refine (θ_run Cert.ReferenceIdeal.defs _ _).mono (fun _ h c => ?_) (Cert.ReferenceIdeal.ValueP.run (F := Ideal) m' ρ')
  obtain ⟨a0, a1, a2, a3, a4, a5, a6, a7, a8, a9⟩ := hagree c
  exact ⟨(h c).1.trans (Cert.Spec.adj_eq m m' c a0 a1 a2 a3 a4 a5 a6 a7 a8 a9),
    (h c).2.1.trans (Cert.Spec.mu_eq m m' c a0 a1 a2 a3 a4 a5 a6 a7 a8 a9),
    (h c).2.2.1.trans (Cert.Spec.lv_eq m m' c a0 a1 a2 a3 a4 a5 a6 a7 a8 a9),
    (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
